-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x2 .f32) (main_arg4 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg3
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x128 : Shape := ⟨2, ![1, 128]⟩
abbrev S_ : Shape := ⟨0, ![]⟩
abbrev S128x8 : Shape := ⟨2, ![128, 8]⟩
abbrev S2x1 : Shape := ⟨2, ![2, 1]⟩
abbrev S10x2x10000 : Shape := ⟨3, ![10, 2, 10000]⟩
abbrev S10000x128 : Shape := ⟨2, ![10000, 128]⟩
abbrev S2x2x10000 : Shape := ⟨3, ![2, 2, 10000]⟩
abbrev S2500x128 : Shape := ⟨2, ![2500, 128]⟩
abbrev S8x2500 : Shape := ⟨2, ![8, 2500]⟩
abbrev S2x2500 : Shape := ⟨2, ![2, 2500]⟩
abbrev S1x2x2500 : Shape := ⟨3, ![1, 2, 2500]⟩
abbrev S10x10000x2 : Shape := ⟨3, ![10, 10000, 2]⟩
abbrev S100000x2 : Shape := ⟨2, ![100000, 2]⟩

abbrev nBuf : Space → Nat
  | .hbm => 15
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x2, .f32⟩
  | .hbm, ⟨4, _⟩ => ⟨S2, .f32⟩
  | .hbm, ⟨5, _⟩ => ⟨S128x128, .bf16⟩
  | .hbm, ⟨6, _⟩ => ⟨S1x128, .f32⟩
  | .hbm, ⟨7, _⟩ => ⟨S_, .i32⟩
  | .hbm, ⟨8, _⟩ => ⟨S_, .f32⟩
  | .hbm, ⟨9, _⟩ => ⟨S128x8, .f32⟩
  | .hbm, ⟨10, _⟩ => ⟨S128x8, .bf16⟩
  | .hbm, ⟨11, _⟩ => ⟨S2x1, .f32⟩
  | .hbm, ⟨12, _⟩ => ⟨S10x2x10000, .f32⟩
  | .hbm, ⟨13, _⟩ => ⟨S10x10000x2, .f32⟩
  | .hbm, ⟨14, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .bf16⟩
  | .local _ .vmem, ⟨5, _⟩ => ⟨S1x128, .f32⟩
  | .local _ .vmem, ⟨6, _⟩ => ⟨S128x8, .bf16⟩
  | .local _ .vmem, ⟨7, _⟩ => ⟨S2x1, .f32⟩
  | .local _ .vmem, ⟨8, _⟩ => ⟨S2x2x10000, .f32⟩
  | .local _ .vmem, ⟨9, _⟩ => ⟨S2x2x10000, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x2x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S128_S1x128 : S128.ShapeCasts S1x128
  pads_S128x2_S128x8_000_060 : S128x2.Pads (![0, 0] : Fin 2 → Nat) ![0, 6] ![0, 0] S128x8
  h_S_ : 0 < S_.numel
  shapeCasts_S2_S2x1 : S2.ShapeCasts S2x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S10000x128_S2500x128_0_0 : ∀ a, (![0, 0] : Fin 2 → Nat) a + S2500x128.size a ≤ S10000x128.size a
  h_S2500x128 : 0 < S2500x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2500x128 : S1x128.Broadcasts S2500x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  slices_S8x2500_o0_0_S2x2500 : S8x2500.Slices ![0, 0] S2x2500
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x2500 : S2x1.Broadcasts S2x2500
  inb_S2x2x10000_S1x2x2500_0_0_0 : ∀ a, (![0, 0, 0] : Fin 3 → Nat) a + S1x2x2500.size a ≤ S2x2x10000.size a
  h_S1x2x2500 : 0 < S1x2x2500.numel
  shapeCasts_S1x2x2500_S2x2500 : S1x2x2500.ShapeCasts S2x2500
  shapeCasts_S2x2500_S1x2x2500 : S2x2500.ShapeCasts S1x2x2500
  inb_S10000x128_S2500x128_2500_0 : ∀ a, (![2500, 0] : Fin 2 → Nat) a + S2500x128.size a ≤ S10000x128.size a
  inb_S2x2x10000_S1x2x2500_0_0_2500 : ∀ a, (![0, 0, 2500] : Fin 3 → Nat) a + S1x2x2500.size a ≤ S2x2x10000.size a
  inb_S10000x128_S2500x128_5000_0 : ∀ a, (![5000, 0] : Fin 2 → Nat) a + S2500x128.size a ≤ S10000x128.size a
  inb_S2x2x10000_S1x2x2500_0_0_5000 : ∀ a, (![0, 0, 5000] : Fin 3 → Nat) a + S1x2x2500.size a ≤ S2x2x10000.size a
  inb_S10000x128_S2500x128_7500_0 : ∀ a, (![7500, 0] : Fin 2 → Nat) a + S2500x128.size a ≤ S10000x128.size a
  inb_S2x2x10000_S1x2x2500_0_0_7500 : ∀ a, (![0, 0, 7500] : Fin 3 → Nat) a + S1x2x2500.size a ≤ S2x2x10000.size a
  inb_S2x2x10000_S1x2x2500_1_0_0 : ∀ a, (![1, 0, 0] : Fin 3 → Nat) a + S1x2x2500.size a ≤ S2x2x10000.size a
  inb_S2x2x10000_S1x2x2500_1_0_2500 : ∀ a, (![1, 0, 2500] : Fin 3 → Nat) a + S1x2x2500.size a ≤ S2x2x10000.size a
  inb_S2x2x10000_S1x2x2500_1_0_5000 : ∀ a, (![1, 0, 5000] : Fin 3 → Nat) a + S1x2x2500.size a ≤ S2x2x10000.size a
  inb_S2x2x10000_S1x2x2500_1_0_7500 : ∀ a, (![1, 0, 7500] : Fin 3 → Nat) a + S1x2x2500.size a ≤ S2x2x10000.size a
  transposes_S10x2x10000_S10x10000x2_0_2_1 : S10x2x10000.Transposes [0, 2, 1] S10x10000x2
  shapeCasts_S10x10000x2_S100000x2 : S10x10000x2.ShapeCasts S100000x2
  dot_S2500x128_S128x128_S2500x128_1_0_0_1_n_n_wf : DotDims.WF S2500x128 S128x128 S2500x128 [1] [0] [0] [1] [] []
  dot_S128x8_S2500x128_S8x2500_0_1_1_0_n_n_wf : DotDims.WF S128x8 S2500x128 S8x2500 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x8.size a ≤ S128x8.size a
  hwx0_4 : ∀ i : grid0.Coords, EltTy.bits .bf16 = 32 ∨ (Rect.block (s := S128x8) S128x8.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x1.size a ≤ S2x1.size a
  hwx0_5 : ∀ i : grid0.Coords, EltTy.bits .f32 = 32 ∨ (Rect.block (s := S2x1) S2x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x2x10000.size a ≤ S10x2x10000.size a
  hwx0_6 : ∀ i : grid0.Coords, EltTy.bits .f32 = 32 ∨ (Rect.block (s := S10x2x10000) S2x2x10000.size (cc0_transform_6 i) (hinb0_6 i)).WholeWords (EltTy.packing .f32)

variable [Facts₀]

def dot_S2500x128_S128x128_S2500x128_1_0_0_1_n_n : DotDims S2500x128 S128x128 S2500x128 where
  lhsContracting := [1]
  rhsContracting := [0]
  lhsNonContracting := [0]
  rhsNonContracting := [1]
  lhsBatch := []
  rhsBatch := []
  wf := dot_S2500x128_S128x128_S2500x128_1_0_0_1_n_n_wf
def dot_S128x8_S2500x128_S8x2500_0_1_1_0_n_n : DotDims S128x8 S2500x128 S8x2500 where
  lhsContracting := [0]
  rhsContracting := [1]
  lhsNonContracting := [1]
  rhsNonContracting := [0]
  lhsBatch := []
  rhsBatch := []
  wf := dot_S128x8_S2500x128_S8x2500_0_1_1_0_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2x2x10000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x128 : Shape := ⟨2, ![1, 128]⟩
abbrev S_ : Shape := ⟨0, ![]⟩
abbrev S100000x2 : Shape := ⟨2, ![100000, 2]⟩
abbrev S1x2 : Shape := ⟨2, ![1, 2]⟩

abbrev nBuf : Space → Nat
  | .hbm => 16
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x2, .f32⟩
  | .hbm, ⟨4, _⟩ => ⟨S2, .f32⟩
  | .hbm, ⟨5, _⟩ => ⟨S100000x128, .f32⟩
  | .hbm, ⟨6, _⟩ => ⟨S1x128, .f32⟩
  | .hbm, ⟨7, _⟩ => ⟨S100000x128, .f32⟩
  | .hbm, ⟨8, _⟩ => ⟨S100000x128, .f32⟩
  | .hbm, ⟨9, _⟩ => ⟨S_, .f32⟩
  | .hbm, ⟨10, _⟩ => ⟨S100000x128, .f32⟩
  | .hbm, ⟨11, _⟩ => ⟨S100000x128, .f32⟩
  | .hbm, ⟨12, _⟩ => ⟨S100000x2, .f32⟩
  | .hbm, ⟨13, _⟩ => ⟨S1x2, .f32⟩
  | .hbm, ⟨14, _⟩ => ⟨S100000x2, .f32⟩
  | .hbm, ⟨15, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.Kernel.BodyDefs.lean ====
/-
  What the kernel body leaves in its output block, as a function of the blocks it is handed.
  The body is handed two blocks of 10000 rows of the features (`xa`, `xb`), the first-layer weights and bias and
  the (padded) second-layer weights and bias, and writes a block of shape [2, 2, 10000]: for each of the two
  feature blocks and each of four chunks of 2500 rows, the two rows of logits of that chunk, transposed.
  Every one of the eight stored pieces is ONE function (`piece`) of the bias, the chunk of rows, and the weights:
  the printed body computes it eight times, cut differently across its parts.
-/
import proofs.«172818_g67224828117284_cont_sun_c4_631_34_alg».proof.Proof.Gen.Kernel.Skeleton
import Idealize.ShloMosaic.Lib.Pipeline.FrameBody

noncomputable section

namespace Cert.Kernel.Mlp

open Idealize.ShloMosaic Idealize.ShloMosaic.TcCoe Idealize.SL.Sem
open Cert.Kernel Cert.Kernel.Gen

variable {F : FTy → Type} [FloatOps F]

/-! ## The rectangles the body loads and stores through -/

/-- Chunk `j` of a block of 10000 rows: rows `2500 j` to `2500 j + 2499`. -/
abbrev rx0 : Rect S10000x128 := Rect.unit (s := S10000x128) ![0, 0] S2500x128.size inb_S10000x128_S2500x128_0_0
abbrev rx1 : Rect S10000x128 := Rect.unit (s := S10000x128) ![2500, 0] S2500x128.size inb_S10000x128_S2500x128_2500_0
abbrev rx2 : Rect S10000x128 := Rect.unit (s := S10000x128) ![5000, 0] S2500x128.size inb_S10000x128_S2500x128_5000_0
abbrev rx3 : Rect S10000x128 := Rect.unit (s := S10000x128) ![7500, 0] S2500x128.size inb_S10000x128_S2500x128_7500_0

/-- Where the logits of chunk `j` of feature block `k` go in the output block: `[k, 0..1, 2500 j .. 2500 j + 2499]`. -/
abbrev ro00 : Rect S2x2x10000 := Rect.unit (s := S2x2x10000) ![0, 0, 0] S1x2x2500.size inb_S2x2x10000_S1x2x2500_0_0_0
abbrev ro01 : Rect S2x2x10000 := Rect.unit (s := S2x2x10000) ![0, 0, 2500] S1x2x2500.size inb_S2x2x10000_S1x2x2500_0_0_2500
abbrev ro02 : Rect S2x2x10000 := Rect.unit (s := S2x2x10000) ![0, 0, 5000] S1x2x2500.size inb_S2x2x10000_S1x2x2500_0_0_5000
abbrev ro03 : Rect S2x2x10000 := Rect.unit (s := S2x2x10000) ![0, 0, 7500] S1x2x2500.size inb_S2x2x10000_S1x2x2500_0_0_7500
abbrev ro10 : Rect S2x2x10000 := Rect.unit (s := S2x2x10000) ![1, 0, 0] S1x2x2500.size inb_S2x2x10000_S1x2x2500_1_0_0
abbrev ro11 : Rect S2x2x10000 := Rect.unit (s := S2x2x10000) ![1, 0, 2500] S1x2x2500.size inb_S2x2x10000_S1x2x2500_1_0_2500
abbrev ro12 : Rect S2x2x10000 := Rect.unit (s := S2x2x10000) ![1, 0, 5000] S1x2x2500.size inb_S2x2x10000_S1x2x2500_1_0_5000
abbrev ro13 : Rect S2x2x10000 := Rect.unit (s := S2x2x10000) ![1, 0, 7500] S1x2x2500.size inb_S2x2x10000_S1x2x2500_1_0_7500

/-! ## One piece -/

/-- The logits of one chunk of 2500 rows, transposed, as the body computes them: the first product into zeros, the
    bias added and the positive part taken, the second (transposed) product into zeros, its first two rows, the
    second bias added. -/
def piece (b1 : Vec F S1x128 .f32) (xc : Vec F S2500x128 .f32) (w1 : Vec F S128x128 .bf16) (w2 : Vec F S128x8 .bf16)
    (b2 : Vec F S2x1 .f32) : Vec F S1x2x2500 .f32 :=
  k0_pay4 b1 xc w1 w2 b2

/-! ## The block the body leaves -/

/-- The output block after the body: its eight stores as pieces, the LAST store first. -/
def out6 (xa xb : Vec F S10000x128 .f32) (w1 : Vec F S128x128 .bf16) (b1 : Vec F S1x128 .f32) (w2 : Vec F S128x8 .bf16)
    (b2 : Vec F S2x1 .f32) : Vec F S2x2x10000 .f32 :=
  View.canon
    [⟨ro13, piece b1 (View.ld xb rx3) w1 w2 b2⟩, ⟨ro12, piece b1 (View.ld xb rx2) w1 w2 b2⟩,
     ⟨ro11, piece b1 (View.ld xb rx1) w1 w2 b2⟩, ⟨ro10, piece b1 (View.ld xb rx0) w1 w2 b2⟩,
     ⟨ro03, piece b1 (View.ld xa rx3) w1 w2 b2⟩, ⟨ro02, piece b1 (View.ld xa rx2) w1 w2 b2⟩,
     ⟨ro01, piece b1 (View.ld xa rx1) w1 w2 b2⟩, ⟨ro00, piece b1 (View.ld xa rx0) w1 w2 b2⟩]

end Cert.Kernel.Mlp

end
-- ==== Proof.Kernel.Body.lean ====
/-
  The kernel body's triple. Called on whole staging buffers — the two feature blocks, the first-layer weights and
  bias, the padded second-layer weights and the second bias at read contents, the output block at anything — the body
  runs to its return leaving the inputs as they were and the output block at `out6` of them: its eight stores tile
  the block, and each stored value is `piece` of the bias, the chunk of rows it loaded, and the weights.
-/
import proofs.«172818_g67224828117284_cont_sun_c4_631_34_alg».proof.Proof.Kernel.BodyDefs
import proofs.«172818_g67224828117284_cont_sun_c4_631_34_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-! ## The eight stored values are one function

The body computes the logits of a chunk eight times; the printed text cuts the chain of operations at different
places each time (the rounded bias alone, the hidden layer, the rounded chunk, the logits before their last
reshape), but every cut is a composition of the same operations in the same order, so each stored value is
`piece` of the bias, the chunk and the weights by unfolding. -/

section Pieces

variable (b1 : Vec F S1x128 .f32) (xc : Vec F S2500x128 .f32) (w1 : Vec F S128x128 .bf16) (w2 : Vec F S128x8 .bf16)
  (b2 : Vec F S2x1 .f32)

/-- Cut after the hidden layer. -/
theorem pay6_eq : k0_pay6 (k0_pay5 b1 xc w1) w2 b2 = piece b1 xc w1 w2 b2 := rfl
/-- Cut after the rounded bias. -/
theorem pay7_eq : k0_pay7 (k0_pay3 b1) xc w1 w2 b2 = piece b1 xc w1 w2 b2 := rfl
/-- Cut after the rounded bias and after the rounded chunk. -/
theorem pay9_eq : k0_pay9 (k0_pay3 b1) (k0_pay8 xc) w1 w2 b2 = piece b1 xc w1 w2 b2 := rfl
/-- Cut before the last reshape. -/
theorem pay11_eq : k0_pay11 (k0_pay10 (k0_pay3 b1) xc w1 w2 b2) = piece b1 xc w1 w2 b2 := rfl
/-- Cut after the rounded bias. -/
theorem pay12_eq : k0_pay12 (k0_pay3 b1) xc w1 w2 b2 = piece b1 xc w1 w2 b2 := rfl
/-- Cut after the rounded bias and after the hidden layer. -/
theorem pay1_eq : k0_pay1 (k0_pay13 (k0_pay3 b1) xc w1) w2 b2 = piece b1 xc w1 w2 b2 := rfl
/-- Cut after the rounded bias. -/
theorem pay2_eq : k0_pay2 (k0_pay3 b1) xc w1 w2 b2 = piece b1 xc w1 w2 b2 := rfl

end Pieces

/-! ## The eight stores cover the output block -/

/-- The zero offsets of a rank-2 load of a whole buffer. -/
theorem hz2 : (![0, 0] : Fin 2 → Nat) = fun _ => 0 := funext fun a => by fin_cases a <;> rfl

/-- The eight rectangles `[k, 0..1, 2500 j .. 2500 j + 2499]` (`k < 2`, `j < 4`) tile `[2, 2, 10000]` in blocks of
    `[1, 2, 2500]`, so every index of the block lies in one of them. -/
theorem cover6 (p0 p1 p2 p3 p4 p5 p6 p7 : Vec F S1x2x2500 .f32) (y : S2x2x10000.Idx) :
    ∃ pc ∈ ([⟨ro13, p7⟩, ⟨ro12, p6⟩, ⟨ro11, p5⟩, ⟨ro10, p4⟩, ⟨ro03, p3⟩, ⟨ro02, p2⟩, ⟨ro01, p1⟩, ⟨ro00, p0⟩] :
      List (View.Piece (Elt F) S2x2x10000 .f32)), y ∈ pc.1.set :=
  View.cover_of_tiled (s := S2x2x10000) [⟨ro13, p7⟩, ⟨ro12, p6⟩, ⟨ro11, p5⟩, ⟨ro10, p4⟩, ⟨ro03, p3⟩, ⟨ro02, p2⟩, ⟨ro01, p1⟩, ⟨ro00, p0⟩]
    S1x2x2500.size (by rfl) y

set_option maxHeartbeats 1000000 in
/-- The kernel body on whole staging buffers. -/
theorem sound_kernel (c : Dev nD) (E : Set ℕ) (i : grid0.Coords)
    (arg1 : Memref sig .tc .vmem S10000x128 .f32) (harg1 : arg1.IsWhole) (arg2 : Memref sig .tc .vmem S10000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x8 .bf16) (harg5 : arg5.IsWhole) (arg6 : Memref sig .tc .vmem S2x1 .f32) (harg6 : arg6.IsWhole)
    (arg7 : Memref sig .tc .vmem S2x2x10000 .f32) (harg7 : arg7.IsWhole)
    (xa xb : Vec F S10000x128 .f32) (w1 : Vec F S128x128 .bf16) (b1 : Vec F S1x128 .f32) (w2 : Vec F S128x8 .bf16) (b2 : Vec F S2x1 .f32)
    (K : PUnit → sProp 𝕄) :
    iprop(owns (c : Thread nD τ) arg1 fullShare xa ∗ owns (c : Thread nD τ) arg2 fullShare xb
        ∗ owns (c : Thread nD τ) arg3 fullShare w1 ∗ owns (c : Thread nD τ) arg4 fullShare b1
        ∗ owns (c : Thread nD τ) arg5 fullShare w2 ∗ owns (c : Thread nD τ) arg6 fullShare b2
        ∗ (∃ d, owns (c : Thread nD τ) arg7 fullShare d)
        ∗ (iprop(owns (c : Thread nD τ) arg1 fullShare xa ∗ owns (c : Thread nD τ) arg2 fullShare xb
            ∗ owns (c : Thread nD τ) arg3 fullShare w1 ∗ owns (c : Thread nD τ) arg4 fullShare b1
            ∗ owns (c : Thread nD τ) arg5 fullShare w2 ∗ owns (c : Thread nD τ) arg6 fullShare b2
            ∗ owns (c : Thread nD τ) arg7 fullShare (out6 xa xb w1 b1 w2 b2)) -∗ K ⟨⟩))
      ⊢ wp frame (wpE (defs₀ (F := F)) Variants.none c none) E
          (cc0__mlp_block i arg1 harg1 arg2 harg2 arg3 harg3 arg4 harg4 arg5 harg5 arg6 harg6 arg7 harg7) K := by
  simp only [cc0__mlp_block_eq_skeleton]; unfold cc0__mlp_block_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  -- the body runs to its return; what is left to show is the continuation's premise
  sl_exec
  sl_step
  iapply Hk
  -- the six inputs are only read: each comes back with the contents it had
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  -- the output block holds the eight stores over whatever it held before
  iexists _; isplitr
  swap; · iexact H7
  ipureintro
  -- the stores cover the block, so it reads as their overlay, nothing of the earlier contents left
  refine (View.read_writes_eq_canon _ _ _ (cover6 _ _ _ _ _ _ _ _)).trans ?_
  -- a load of a whole buffer through its full rectangle at zero offsets is the buffer; each stored value is `piece`
  sl_unfold_run_names
  simp only [View.readAt_eq_ld, View.ld_unit_zero (S := S128x128) hz2, View.ld_unit_zero (S := S1x128) hz2,
    View.ld_unit_zero (S := S128x8) hz2, View.ld_unit_zero (S := S2x1) hz2,
    pay6_eq, pay7_eq, pay9_eq, pay11_eq, pay12_eq, pay1_eq, pay2_eq]
  rfl

end Cert.Kernel.Mlp

end
-- ==== Proof.Kernel.Data.lean ====
/-
  The pipeline's proof data and the body obligation. At a parameter `V` — the core's buffer contents when the region
  is entered — each window's block at a grid point is read off its array; an input's staging buffer holds that block
  at every point, fetched there or not; the output's holds `out6` of the six input blocks. The features' array is
  handed to the pipeline through TWO windows (the even and the odd blocks of 10000 rows), so it is held at half the
  full share by each; every other input array is held whole.
-/
import proofs.«172818_g67224828117284_cont_sun_c4_631_34_alg».proof.Proof.Kernel.Body
import proofs.«172818_g67224828117284_cont_sun_c4_631_34_alg».proof.Proof.Gen.Kernel.Points
import Idealize.ShloMosaic.Lib.Pipeline.Frame

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The proof data -/

/-- The proof data on core `c`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t = iblk V c 5 t := by dsimp only [dat0]
theorem after_6 (c : Dev nD) (t : Fin cfg0.N) : (dat0 V c).after 6 t
    = out6 (iblk V c 0 t) (iblk V c 1 t) (iblk V c 2 t) (iblk V c 3 t) (iblk V c 4 t) (iblk V c 5 t) := by dsimp only [dat0]

/-- Input window 0's staging buffer holds its block at every point, fetched there or not: unfetched, the block index has
    not moved, and the body leaves the block in place. -/
theorem before_0 (c : Dev nD) (t : Fin cfg0.N) (d) : (dat0 V c).before 0 t d = iblk V c 0 t :=
  ((dat0 V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1's staging buffer holds its block at every point, fetched there or not: unfetched, the block index has
    not moved, and the body leaves the block in place. -/
theorem before_1 (c : Dev nD) (t : Fin cfg0.N) (d) : (dat0 V c).before 1 t d = iblk V c 1 t :=
  ((dat0 V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input window 2's staging buffer holds its block at every point, fetched there or not: unfetched, the block index has
    not moved, and the body leaves the block in place. -/
theorem before_2 (c : Dev nD) (t : Fin cfg0.N) (d) : (dat0 V c).before 2 t d = iblk V c 2 t :=
  ((dat0 V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Input window 3's staging buffer holds its block at every point, fetched there or not: unfetched, the block index has
    not moved, and the body leaves the block in place. -/
theorem before_3 (c : Dev nD) (t : Fin cfg0.N) (d) : (dat0 V c).before 3 t d = iblk V c 3 t :=
  ((dat0 V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
/-- Input window 4's staging buffer holds its block at every point, fetched there or not: unfetched, the block index has
    not moved, and the body leaves the block in place. -/
theorem before_4 (c : Dev nD) (t : Fin cfg0.N) (d) : (dat0 V c).before 4 t d = iblk V c 4 t :=
  ((dat0 V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- Input window 5's staging buffer holds its block at every point, fetched there or not: unfetched, the block index has
    not moved, and the body leaves the block in place. -/
theorem before_5 (c : Dev nD) (t : Fin cfg0.N) (d) : (dat0 V c).before 5 t d = iblk V c 5 t :=
  ((dat0 V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat0 V c).Φ t.succ = (dat0 V c).Φ t.castSucc from rfl,
    show (dat0 V c).owesAt () t.succ = (dat0 V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Mlp

end
-- ==== Proof.Kernel.Shared.lean ====
/-
  The arrays the pipeline is handed, when two windows share one. The pipeline holds, per window, its array at the
  window's share; the core holds, per DISTINCT buffer behind those arrays, the buffer whole. The features' array is
  behind windows 0 and 1: entering the region its full share is split into its two halves, one per window; leaving it
  the two halves — both still at the entry contents, an input being only read — are joined again. Every other buffer
  is behind one window and passes whole.
-/
import proofs.«172818_g67224828117284_cont_sun_c4_631_34_alg».proof.Proof.Kernel.Data
import Idealize.ShloMosaic.Lib.Pipeline.Kit

noncomputable section

namespace Cert.Kernel.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs_chain (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_v0) ↦{fullShare} Vv main_v0)
          ∗ (((c : Thread nD τ).loc main_v1) ↦{fullShare} Vv main_v1) ∗ (((c : Thread nD τ).loc main_v3) ↦{fullShare} Vv main_v3)
          ∗ (((c : Thread nD τ).loc main_v4) ↦{fullShare} Vv main_v4) ∗ (((c : Thread nD τ).loc main_v5) ↦{fullShare} Vv main_v5)) := by
  unfold Pipeline.arrBufs
  exact bigSep_eq_bigSepL_of_eq [main_arg0, main_v0, main_v1, main_v3, main_v4, main_v5] (by decide) (by decide) _

/-- The pipeline's arrays, window by window, each at its share. -/
theorem arrays_chain (c : Dev nD) (Fv : (w : Fin cfg0.W) → Buf (Elt F) ((cfg0.win w).arr.view.loc (c : Thread nD τ))) :
    ((dat0 V c).arrays Fv : sProp 𝕄)
      = iprop((((c : Thread nD τ).loc main_arg0) ↦{fullShare.left} Fv 0) ∗ (((c : Thread nD τ).loc main_arg0) ↦{fullShare.right} Fv 1)
          ∗ (((c : Thread nD τ).loc main_v0) ↦{fullShare} Fv 2) ∗ (((c : Thread nD τ).loc main_v1) ↦{fullShare} Fv 3)
          ∗ (((c : Thread nD τ).loc main_v3) ↦{fullShare} Fv 4) ∗ (((c : Thread nD τ).loc main_v4) ↦{fullShare} Fv 5)
          ∗ (((c : Thread nD τ).loc main_v5) ↦{fullShare} Fv 6)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ]
  rfl

/-- ENTRY: the buffers behind the arrays, whole at contents `Vv`, are the pipeline's arrays at contents read off `Vv`. -/
theorem arrays_of_arrBufs (c : Dev nD) (Vv : (b : Ref sig .tc) → Buf (Elt F) ((c : Thread nD τ).loc b))
    (Fv : (w : Fin cfg0.W) → Buf (Elt F) ((cfg0.win w).arr.view.loc (c : Thread nD τ)))
    (h0 : Fv 0 = Vv main_arg0) (h1 : Fv 1 = Vv main_arg0) (h2 : Fv 2 = Vv main_v0) (h3 : Fv 3 = Vv main_v1)
    (h4 : Fv 4 = Vv main_v3) (h5 : Fv 5 = Vv main_v4) (h6 : Fv 6 = Vv main_v5) :
    (Pipeline.arrBufs (Ix := Unit) (Name := ℕ) (U := UR sig nD τ) (Lvl := ℕ) spec0 c Vv : sProp 𝕄) ⊢ (dat0 V c).arrays Fv := by
  rw [arrBufs_chain, arrays_chain, h0, h1, h2, h3, h4, h5, h6]
  iintro ⟨Hx, H2, H3, H4, H5, H6⟩
  ihave Hx' := (pointsTo_share (PosShare.mem_left_op_right fullShare)).1 $$ Hx
  icases Hx' with ⟨Hl, Hr⟩
  isplitl [Hl]; · iexact Hl
  isplitl [Hr]; · iexact Hr
  isplitl [H2]; · iexact H2
  isplitl [H3]; · iexact H3
  isplitl [H4]; · iexact H4
  isplitl [H5]; · iexact H5
  iexact H6

/-- EXIT: the pipeline's arrays at contents read off `Vv` are the buffers behind them whole at `Vv`. -/
theorem arrBufs_of_arrays (c : Dev nD) (Vv : (b : Ref sig .tc) → Buf (Elt F) ((c : Thread nD τ).loc b))
    (Fv : (w : Fin cfg0.W) → Buf (Elt F) ((cfg0.win w).arr.view.loc (c : Thread nD τ)))
    (h0 : Fv 0 = Vv main_arg0) (h1 : Fv 1 = Vv main_arg0) (h2 : Fv 2 = Vv main_v0) (h3 : Fv 3 = Vv main_v1)
    (h4 : Fv 4 = Vv main_v3) (h5 : Fv 5 = Vv main_v4) (h6 : Fv 6 = Vv main_v5) :
    ((dat0 V c).arrays Fv : sProp 𝕄) ⊢ Pipeline.arrBufs (Ix := Unit) (Name := ℕ) (U := UR sig nD τ) (Lvl := ℕ) spec0 c Vv := by
  rw [arrBufs_chain, arrays_chain, h0, h1, h2, h3, h4, h5, h6]
  iintro ⟨Hl, Hr, H2, H3, H4, H5, H6⟩
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  isplitl [H5]; · iexact H5
  iexact H6

end Cert.Kernel.Mlp

end
-- ==== Proof.Kernel.Fold.lean ====
/-
  The buffer contents at each boundary of @main, as a fold from the launch memory: after each stretch of host
  operations the buffers hold the operations' results; the kernel region changes one buffer, its result array, which
  ends at what the pipeline's write-backs leave.
-/
import proofs.«172818_g67224828117284_cont_sun_c4_631_34_alg».proof.Proof.Kernel.Data
import Idealize.ShloMosaic.Lib.StableHlo.Run

noncomputable section

namespace Cert.Kernel.Mlp

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch, -/
abbrev W1 : Dev nD → Valuation τ sig (Elt F) := fun c => StableHlo.after hostOps0 (W0 m ρ c)
/-- the padding, -/
abbrev W2 : Dev nD → Valuation τ sig (Elt F) := fun c => StableHlo.after hostOps0_1 (W1 m ρ c)
/-- and the third stretch: the region's entry. -/
abbrev W3 : Dev nD → Valuation τ sig (Elt F) := fun c => StableHlo.after hostOps0_2 (W2 m ρ c)
/-- The same read at the TensorCore's references (what the proof data take). -/
abbrev V3 : (c : Dev nD) → (b : Ref sig .tc) → Buf (Elt F) ((c : Thread nD τ).loc b) := fun c b => W3 m ρ c b
/-- At the region's exit: the result array at what the write-backs leave, every other buffer as entered. -/
def W4 (c : Dev nD) : Valuation τ sig (Elt F) :=
  Function.update (W3 m ρ c) (Proc.devRef .tc main_v5) ((dat0 (V3 m ρ) c).arrAt 6 cfg0.N)
abbrev V4 : (c : Dev nD) → (b : Ref sig .tc) → Buf (Elt F) ((c : Thread nD τ).loc b) := fun c b => W4 m ρ c b
/-- After the last stretch: the end. -/
abbrev W5 : Dev nD → Valuation τ sig (Elt F) := fun c => StableHlo.after hostOps1 (W4 m ρ c)

theorem W4_v5 (c : Dev nD) : W4 m ρ c (Proc.devRef .tc main_v5) = (dat0 (V3 m ρ) c).arrAt 6 cfg0.N := by
  unfold W4; exact Function.update_self ..
theorem W4_of_ne (c : Dev nD) (b : Ref sig .tc) (hb : b ≠ main_v5) : W4 m ρ c (Proc.devRef .tc b) = W3 m ρ c (Proc.devRef .tc b) := by
  unfold W4; exact Function.update_of_ne (StableHlo.devRef_ne_of_ne hb) ..

end Cert.Kernel.Mlp

end
-- ==== Proof.Kernel.Run.lean ====
/-
  The run of @main: three stretches of host operations (the first-layer weights converted, the first bias reshaped,
  the class weights padded to eight columns and converted, the second bias reshaped), the kernel region, and a last
  stretch (the region's result transposed and reshaped to rows by classes). The buffer contents at each boundary are a
  fold from the launch memory; the region changes one buffer, its result array, which ends at what the pipeline's
  write-backs leave. Every weakly fair execution terminates, and the final memory holds every unscoped buffer at the
  last boundary's contents.
-/
import proofs.«172818_g67224828117284_cont_sun_c4_631_34_alg».proof.Proof.Kernel.Shared
import proofs.«172818_g67224828117284_cont_sun_c4_631_34_alg».proof.Proof.Kernel.Fold
import Idealize.ShloMosaic.Lib.Pipeline.RegionsLoop
import Idealize.ShloMosaic.Lib.Pipeline.FrameSuffix

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The region's arrays in and out of the unscoped buffers -/

/-- ENTRY: every unscoped buffer at the entry contents is the pipeline's arrays at their entry contents — the features'
    array split between its two windows — and the buffers no window stages. -/
theorem entry_split (c : Dev nD) :
    (StableHlo.held (c : Thread nD τ) (Pipeline.ucRefs τ sig) (W3 m ρ c) : sProp 𝕄)
      ⊢ iprop((dat0 (V3 m ρ) c).arrays ((dat0 (V3 m ρ) c).arrAt · 0)
          ∗ Pipeline.unscopedRest (Ix := Unit) (Name := ℕ) (U := UR sig nD τ) (Lvl := ℕ) spec0 c (V3 m ρ c)) := by
  rw [← Pipeline.unscopedBufs_held (Ix := Unit) (Name := ℕ) (U := UR sig nD τ) (Lvl := ℕ) c (W3 m ρ c),
    Pipeline.unscopedBufs_split₀ cfgs 0 winFacts₀0.arr_unscoped c (V3 m ρ c)]
  exact sep_mono (arrays_of_arrBufs (V3 m ρ) c (V3 m ρ c) _ rfl rfl rfl rfl rfl rfl rfl) .rfl

/-- EXIT: the arrays as the pipeline leaves them — the inputs as entered, the result at its write-backs — and the
    buffers no window stages are every unscoped buffer at the exit contents. -/
theorem exit_join (c : Dev nD) :
    iprop((dat0 (V3 m ρ) c).arrays ((dat0 (V3 m ρ) c).arrAt · cfg0.N)
        ∗ Pipeline.unscopedRest (Ix := Unit) (Name := ℕ) (U := UR sig nD τ) (Lvl := ℕ) spec0 c (V3 m ρ c))
      ⊢ (StableHlo.held (c : Thread nD τ) (Pipeline.ucRefs τ sig) (W4 m ρ c) : sProp 𝕄) := by
  rw [← Pipeline.unscopedBufs_held (Ix := Unit) (Name := ℕ) (U := UR sig nD τ) (Lvl := ℕ) c (W4 m ρ c),
    Pipeline.unscopedBufs_split₀ cfgs 0 winFacts₀0.arr_unscoped c (V4 m ρ c)]
  refine sep_mono (arrBufs_of_arrays (V3 m ρ) c (V4 m ρ c) _ ?_ ?_ ?_ ?_ ?_ ?_ ?_) (Entails.of_eq ?_)
  · exact ((dat0 (V3 m ρ) c).arrAt_in 0 rfl _).trans ((A_eq (V3 m ρ) c 0).trans (W4_of_ne m ρ c main_arg0 (by decide)).symm)
  · exact ((dat0 (V3 m ρ) c).arrAt_in 1 rfl _).trans ((A_eq (V3 m ρ) c 1).trans (W4_of_ne m ρ c main_arg0 (by decide)).symm)
  · exact ((dat0 (V3 m ρ) c).arrAt_in 2 rfl _).trans ((A_eq (V3 m ρ) c 2).trans (W4_of_ne m ρ c main_v0 (by decide)).symm)
  · exact ((dat0 (V3 m ρ) c).arrAt_in 3 rfl _).trans ((A_eq (V3 m ρ) c 3).trans (W4_of_ne m ρ c main_v1 (by decide)).symm)
  · exact ((dat0 (V3 m ρ) c).arrAt_in 4 rfl _).trans ((A_eq (V3 m ρ) c 4).trans (W4_of_ne m ρ c main_v3 (by decide)).symm)
  · exact ((dat0 (V3 m ρ) c).arrAt_in 5 rfl _).trans ((A_eq (V3 m ρ) c 5).trans (W4_of_ne m ρ c main_v4 (by decide)).symm)
  · exact (W4_v5 m ρ c).symm
  · unfold Pipeline.unscopedRest
    refine bigSep_congr fun b hb => ?_
    rw [show V4 m ρ c b = V3 m ρ c b from W4_of_ne m ρ c b fun e =>
      (Finset.mem_sdiff.mp hb).2 (Finset.mem_image.mpr ⟨6, Finset.mem_univ _, e.symm⟩)]

/-! ## The region as a segment -/

set_option backward.isDefEq.respectTransparency.types false in
/-- The kernel region over the thread state: entered from every unscoped buffer at `W3`, left at `W4`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    iintro ⟨⟨Hub, Hp, HO⟩, -, -⟩
    ihave H := (entry_split m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_join m ρ c)
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)) ]

/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main terminates, and the final memory has every
    unscoped buffer of each core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (StableHlo.after hostOps1 (W4 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Mlp

end
-- ==== Proof.Kernel.Tail.lean ====
/-
  The end of @main, read at an entry. After the region its result array, of shape [10, 2, 10000] (block of rows, class,
  row within the block), is transposed to [10, 10000, 2] and reshaped to [100000, 2]: row `n`, class `cc` of the
  program's result is the region's result at block `n / 10000`, class `cc`, row `n % 10000`. No host operation after
  the region, nor the region, writes an argument: each ends as launched.
-/
import proofs.«172818_g67224828117284_cont_sun_c4_631_34_alg».proof.Proof.Kernel.Fold
import Idealize.ShloMosaic.Lib.StableHlo.Run
import Idealize.ShloMosaic.Lib.Pipeline.Value
import Idealize.ShloMosaic.Lib.ValueIdx
import Idealize.ShloMosaic.Lib.ValueLayout

noncomputable section

namespace Cert.Kernel.Mlp

open Idealize.ShloMosaic Idealize.ShloMosaic.TcCoe Idealize.ShloMosaic.ValueIdx
open Idealize.SL Idealize.SL.Sem
open Cert.Kernel Cert.Kernel.Gen

variable {F : FTy → Type} [FloatOps F]

variable (m : (ℓ : Loc nD τ sig) → Buf (Elt F) ℓ) (ρ : Dev nD → PrngReg)

/-- A `[10, 10000, 2]` array cast to `[100000, 2]` reads, at `(n, cc)`, the operand at `(n / 10000, n % 10000, cc)`:
    both have row-major position `2 n + cc`. -/
private theorem shapeCast_rows_apply {α : Type} (y : S10x10000x2.Idx → α) (h : S10x10000x2.ShapeCasts S100000x2)
    (n : Fin 100000) (cc : Fin 2) :
    shapeCast S100000x2 y h (ix2 n cc)
      = y (ix3 (⟨n.val / 10000, by omega⟩ : Fin 10) (⟨n.val % 10000, by omega⟩ : Fin 10000) cc) :=
  shapeCast_apply y h _ _ (by
    rw [Shape.rowMajor_val_three, Shape.rowMajor_val_two]
    show ((n.val / 10000) * 10000 + n.val % 10000) * 2 + cc.val = n.val * 2 + cc.val
    have := Nat.div_add_mod n.val 10000
    omega)

/-- The transposed, then cast, array read at `(n, cc)`. -/
private theorem tail_apply {α : Type} (y : S10x2x10000.Idx → α) (ht : S10x2x10000.Transposes [0, 2, 1] S10x10000x2)
    (hc : S10x10000x2.ShapeCasts S100000x2) (n : Fin 100000) (cc : Fin 2) :
    shapeCast S100000x2 (transpose S10x10000x2 [0, 2, 1] y ht) hc (ix2 n cc)
      = y (ix3 (⟨n.val / 10000, by omega⟩ : Fin 10) cc (⟨n.val % 10000, by omega⟩ : Fin 10000)) := by
  rw [shapeCast_rows_apply, transpose_ix3_021_apply]

/-- The program's result array: the region's, transposed and cast. -/
private theorem W5_v7 (c : Dev nD) :
    W5 m ρ c (Proc.devRef .tc main_v7)
      = shapeCast S100000x2 (transpose S10x10000x2 [0, 2, 1] (W4 m ρ c (Proc.devRef .tc main_v5))
          transposes_S10x2x10000_S10x10000x2_0_2_1) shapeCasts_S10x10000x2_S100000x2 := by
  show StableHlo.after hostOps1 _ (Proc.devRef .tc main_v7) = _
  after_results
  rfl

/-- The program's result at row `n`, class `cc`, from the region's result array. -/
theorem W5_v7_apply (c : Dev nD) (n : Fin 100000) (cc : Fin 2) :
    W5 m ρ c (Proc.devRef .tc main_v7) (ix2 n cc)
      = W4 m ρ c (Proc.devRef .tc main_v5) (ix3 (⟨n.val / 10000, by omega⟩ : Fin 10) cc (⟨n.val % 10000, by omega⟩ : Fin 10000)) := by
  rw [W5_v7]
  exact tail_apply _ _ _ n cc

/-! ## The arguments

Every reference a host operation of @main writes is one of its own values, listed here; the region writes its result
array. An argument is none of these, so each boundary's contents at it are the launch memory's. -/

/-- The references the host operations write: each operation's result. -/
private abbrev written : List (Ref sig .tc) :=
  [main_v0, main_v1, main_c, main_call0_v0, main_v2, main_v3, main_v4, main_v6, main_v7]

/-- An operation whose one result is in a list writes within the list. -/
private theorem writes_sub_of_mem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

private theorem hostOps0_writes :
    (hostOps0 : List (HloOp τ sig (Elt F))).Forall fun op => op.writes ⊆ (written.map (Proc.devRef (τ := τ) .tc)).toFinset :=
  ⟨writes_sub_of_mem (by decide), writes_sub_of_mem (by decide), writes_sub_of_mem (by decide)⟩
private theorem hostOps0_1_writes :
    (hostOps0_1 : List (HloOp τ sig (Elt F))).Forall fun op => op.writes ⊆ (written.map (Proc.devRef (τ := τ) .tc)).toFinset :=
  ⟨writes_sub_of_mem (by decide), writes_sub_of_mem (by decide)⟩
private theorem hostOps0_2_writes :
    (hostOps0_2 : List (HloOp τ sig (Elt F))).Forall fun op => op.writes ⊆ (written.map (Proc.devRef (τ := τ) .tc)).toFinset :=
  ⟨writes_sub_of_mem (by decide), writes_sub_of_mem (by decide)⟩
private theorem hostOps1_writes :
    (hostOps1 : List (HloOp τ sig (Elt F))).Forall fun op => op.writes ⊆ (written.map (Proc.devRef (τ := τ) .tc)).toFinset :=
  ⟨writes_sub_of_mem (by decide), writes_sub_of_mem (by decide)⟩

/-- A reference that no host operation writes and that is not the region's result array ends as launched. -/
private theorem W5_of_not_written (c : Dev nD) (r : Ref sig .tc) (hr : r ∉ written) (h5 : r ≠ main_v5) :
    W5 m ρ c (Proc.devRef .tc r) = m ((c : Thread nD τ).loc r) := by
  show StableHlo.after hostOps1 (W4 m ρ c) (Proc.devRef .tc r) = _
  rw [StableHlo.after_of_writes_sub hostOps1 _ hostOps1_writes hr, W4_of_ne m ρ c r h5]
  show StableHlo.after hostOps0_2 (W2 m ρ c) (Proc.devRef .tc r) = _
  rw [StableHlo.after_of_writes_sub hostOps0_2 _ hostOps0_2_writes hr]
  show StableHlo.after hostOps0_1 (W1 m ρ c) (Proc.devRef .tc r) = _
  rw [StableHlo.after_of_writes_sub hostOps0_1 _ hostOps0_1_writes hr]
  show StableHlo.after hostOps0 (W0 m ρ c) (Proc.devRef .tc r) = _
  rw [StableHlo.after_of_writes_sub hostOps0 _ hostOps0_writes hr]

/-- Each argument ends as launched. -/
theorem W5_arg0 (c : Dev nD) : W5 m ρ c (Proc.devRef .tc main_arg0) = m ((c : Thread nD τ).loc main_arg0) :=
  W5_of_not_written m ρ c main_arg0 (by decide) (by decide)
theorem W5_arg1 (c : Dev nD) : W5 m ρ c (Proc.devRef .tc main_arg1) = m ((c : Thread nD τ).loc main_arg1) :=
  W5_of_not_written m ρ c main_arg1 (by decide) (by decide)
theorem W5_arg2 (c : Dev nD) : W5 m ρ c (Proc.devRef .tc main_arg2) = m ((c : Thread nD τ).loc main_arg2) :=
  W5_of_not_written m ρ c main_arg2 (by decide) (by decide)
theorem W5_arg3 (c : Dev nD) : W5 m ρ c (Proc.devRef .tc main_arg3) = m ((c : Thread nD τ).loc main_arg3) :=
  W5_of_not_written m ρ c main_arg3 (by decide) (by decide)
theorem W5_arg4 (c : Dev nD) : W5 m ρ c (Proc.devRef .tc main_arg4) = m ((c : Thread nD τ).loc main_arg4) :=
  W5_of_not_written m ρ c main_arg4 (by decide) (by decide)

end Cert.Kernel.Mlp

end
-- ==== Proof.Kernel.Frame.lean ====
/-
  The frame: from any memory with zero counters every weakly fair execution of @main terminates, nothing faulting, and the
  five argument arrays end as launched. It is the run of @main read at the arguments' buffers: the final memory holds every
  unscoped buffer at the last boundary's contents, and no host operation, nor the region, writes an argument.
-/
import proofs.«172818_g67224828117284_cont_sun_c4_631_34_alg».proof.Proof.Kernel.Run
import proofs.«172818_g67224828117284_cont_sun_c4_631_34_alg».proof.Proof.Kernel.Tail

noncomputable section

namespace Cert.Kernel.Mlp

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ) (ρ : Dev nD → PrngReg)

/-- @main runs, and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_arg0 m ρ c),
     (h c _ (mem_uc main_arg1 (by decide))).trans (W5_arg1 m ρ c),
     (h c _ (mem_uc main_arg2 (by decide))).trans (W5_arg2 m ρ c),
     (h c _ (mem_uc main_arg3 (by decide))).trans (W5_arg3 m ρ c),
     (h c _ (mem_uc main_arg4 (by decide))).trans (W5_arg4 m ρ c)⟩) (run_main m ρ)

end Cert.Kernel.Mlp

end
-- ==== Proof.KernelIdeal.BodyDefs.lean ====
/-
  What the kernel body leaves in its output block, as a function of the blocks it is handed.
  The body is handed two blocks of 10000 rows of the features (`xa`, `xb`), the first-layer weights and bias and
  the (padded) second-layer weights and bias, and writes a block of shape [2, 2, 10000]: for each of the two
  feature blocks and each of four chunks of 2500 rows, the two rows of logits of that chunk, transposed.
  Every one of the eight stored pieces is ONE function (`piece`) of the bias, the chunk of rows, and the weights:
  the printed body computes it eight times, cut differently across its parts.
-/
import proofs.«172818_g67224828117284_cont_sun_c4_631_34_alg».proof.Proof.Gen.KernelIdeal.Skeleton
import Idealize.ShloMosaic.Lib.Pipeline.FrameBody

noncomputable section

namespace Cert.KernelIdeal.Mlp

open Idealize.ShloMosaic Idealize.ShloMosaic.TcCoe Idealize.SL.Sem
open Cert.KernelIdeal Cert.KernelIdeal.Gen

variable {F : FTy → Type} [FloatOps F]

/-! ## The rectangles the body loads and stores through -/

/-- Chunk `j` of a block of 10000 rows: rows `2500 j` to `2500 j + 2499`. -/
abbrev rx0 : Rect S10000x128 := Rect.unit (s := S10000x128) ![0, 0] S2500x128.size inb_S10000x128_S2500x128_0_0
abbrev rx1 : Rect S10000x128 := Rect.unit (s := S10000x128) ![2500, 0] S2500x128.size inb_S10000x128_S2500x128_2500_0
abbrev rx2 : Rect S10000x128 := Rect.unit (s := S10000x128) ![5000, 0] S2500x128.size inb_S10000x128_S2500x128_5000_0
abbrev rx3 : Rect S10000x128 := Rect.unit (s := S10000x128) ![7500, 0] S2500x128.size inb_S10000x128_S2500x128_7500_0

/-- Where the logits of chunk `j` of feature block `k` go in the output block: `[k, 0..1, 2500 j .. 2500 j + 2499]`. -/
abbrev ro00 : Rect S2x2x10000 := Rect.unit (s := S2x2x10000) ![0, 0, 0] S1x2x2500.size inb_S2x2x10000_S1x2x2500_0_0_0
abbrev ro01 : Rect S2x2x10000 := Rect.unit (s := S2x2x10000) ![0, 0, 2500] S1x2x2500.size inb_S2x2x10000_S1x2x2500_0_0_2500
abbrev ro02 : Rect S2x2x10000 := Rect.unit (s := S2x2x10000) ![0, 0, 5000] S1x2x2500.size inb_S2x2x10000_S1x2x2500_0_0_5000
abbrev ro03 : Rect S2x2x10000 := Rect.unit (s := S2x2x10000) ![0, 0, 7500] S1x2x2500.size inb_S2x2x10000_S1x2x2500_0_0_7500
abbrev ro10 : Rect S2x2x10000 := Rect.unit (s := S2x2x10000) ![1, 0, 0] S1x2x2500.size inb_S2x2x10000_S1x2x2500_1_0_0
abbrev ro11 : Rect S2x2x10000 := Rect.unit (s := S2x2x10000) ![1, 0, 2500] S1x2x2500.size inb_S2x2x10000_S1x2x2500_1_0_2500
abbrev ro12 : Rect S2x2x10000 := Rect.unit (s := S2x2x10000) ![1, 0, 5000] S1x2x2500.size inb_S2x2x10000_S1x2x2500_1_0_5000
abbrev ro13 : Rect S2x2x10000 := Rect.unit (s := S2x2x10000) ![1, 0, 7500] S1x2x2500.size inb_S2x2x10000_S1x2x2500_1_0_7500

/-! ## One piece -/

/-- The logits of one chunk of 2500 rows, transposed, as the body computes them: the first product into zeros, the
    bias added and the positive part taken, the second (transposed) product into zeros, its first two rows, the
    second bias added. -/
def piece (b1 : Vec F S1x128 .f32) (xc : Vec F S2500x128 .f32) (w1 : Vec F S128x128 .bf16) (w2 : Vec F S128x8 .bf16)
    (b2 : Vec F S2x1 .f32) : Vec F S1x2x2500 .f32 :=
  k0_pay4 b1 xc w1 w2 b2

/-! ## The block the body leaves -/

/-- The output block after the body: its eight stores as pieces, the LAST store first. -/
def out6 (xa xb : Vec F S10000x128 .f32) (w1 : Vec F S128x128 .bf16) (b1 : Vec F S1x128 .f32) (w2 : Vec F S128x8 .bf16)
    (b2 : Vec F S2x1 .f32) : Vec F S2x2x10000 .f32 :=
  View.canon
    [⟨ro13, piece b1 (View.ld xb rx3) w1 w2 b2⟩, ⟨ro12, piece b1 (View.ld xb rx2) w1 w2 b2⟩,
     ⟨ro11, piece b1 (View.ld xb rx1) w1 w2 b2⟩, ⟨ro10, piece b1 (View.ld xb rx0) w1 w2 b2⟩,
     ⟨ro03, piece b1 (View.ld xa rx3) w1 w2 b2⟩, ⟨ro02, piece b1 (View.ld xa rx2) w1 w2 b2⟩,
     ⟨ro01, piece b1 (View.ld xa rx1) w1 w2 b2⟩, ⟨ro00, piece b1 (View.ld xa rx0) w1 w2 b2⟩]

end Cert.KernelIdeal.Mlp

end
-- ==== Proof.KernelIdeal.Body.lean ====
/-
  The kernel body's triple. Called on whole staging buffers — the two feature blocks, the first-layer weights and
  bias, the padded second-layer weights and the second bias at read contents, the output block at anything — the body
  runs to its return leaving the inputs as they were and the output block at `out6` of them: its eight stores tile
  the block, and each stored value is `piece` of the bias, the chunk of rows it loaded, and the weights.
-/
import proofs.«172818_g67224828117284_cont_sun_c4_631_34_alg».proof.Proof.KernelIdeal.BodyDefs
import proofs.«172818_g67224828117284_cont_sun_c4_631_34_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! ## The eight stored values are one function

The body computes the logits of a chunk eight times; the printed text cuts the chain of operations at different
places each time (the rounded bias alone, the hidden layer, the rounded chunk, the logits before their last
reshape), but every cut is a composition of the same operations in the same order, so each stored value is
`piece` of the bias, the chunk and the weights by unfolding. -/

section Pieces

variable (b1 : Vec F S1x128 .f32) (xc : Vec F S2500x128 .f32) (w1 : Vec F S128x128 .bf16) (w2 : Vec F S128x8 .bf16)
  (b2 : Vec F S2x1 .f32)

/-- Cut after the hidden layer. -/
theorem pay6_eq : k0_pay6 (k0_pay5 b1 xc w1) w2 b2 = piece b1 xc w1 w2 b2 := rfl
/-- Cut after the rounded bias. -/
theorem pay7_eq : k0_pay7 (k0_pay3 b1) xc w1 w2 b2 = piece b1 xc w1 w2 b2 := rfl
/-- Cut after the rounded bias and after the rounded chunk. -/
theorem pay9_eq : k0_pay9 (k0_pay3 b1) (k0_pay8 xc) w1 w2 b2 = piece b1 xc w1 w2 b2 := rfl
/-- Cut before the last reshape. -/
theorem pay11_eq : k0_pay11 (k0_pay10 (k0_pay3 b1) xc w1 w2 b2) = piece b1 xc w1 w2 b2 := rfl
/-- Cut after the rounded bias. -/
theorem pay12_eq : k0_pay12 (k0_pay3 b1) xc w1 w2 b2 = piece b1 xc w1 w2 b2 := rfl
/-- Cut after the rounded bias and after the hidden layer. -/
theorem pay1_eq : k0_pay1 (k0_pay13 (k0_pay3 b1) xc w1) w2 b2 = piece b1 xc w1 w2 b2 := rfl
/-- Cut after the rounded bias. -/
theorem pay2_eq : k0_pay2 (k0_pay3 b1) xc w1 w2 b2 = piece b1 xc w1 w2 b2 := rfl

end Pieces

/-! ## The eight stores cover the output block -/

/-- The zero offsets of a rank-2 load of a whole buffer. -/
theorem hz2 : (![0, 0] : Fin 2 → Nat) = fun _ => 0 := funext fun a => by fin_cases a <;> rfl

/-- The eight rectangles `[k, 0..1, 2500 j .. 2500 j + 2499]` (`k < 2`, `j < 4`) tile `[2, 2, 10000]` in blocks of
    `[1, 2, 2500]`, so every index of the block lies in one of them. -/
theorem cover6 (p0 p1 p2 p3 p4 p5 p6 p7 : Vec F S1x2x2500 .f32) (y : S2x2x10000.Idx) :
    ∃ pc ∈ ([⟨ro13, p7⟩, ⟨ro12, p6⟩, ⟨ro11, p5⟩, ⟨ro10, p4⟩, ⟨ro03, p3⟩, ⟨ro02, p2⟩, ⟨ro01, p1⟩, ⟨ro00, p0⟩] :
      List (View.Piece (Elt F) S2x2x10000 .f32)), y ∈ pc.1.set :=
  View.cover_of_tiled (s := S2x2x10000) [⟨ro13, p7⟩, ⟨ro12, p6⟩, ⟨ro11, p5⟩, ⟨ro10, p4⟩, ⟨ro03, p3⟩, ⟨ro02, p2⟩, ⟨ro01, p1⟩, ⟨ro00, p0⟩]
    S1x2x2500.size (by rfl) y

set_option maxHeartbeats 1000000 in
/-- The kernel body on whole staging buffers. -/
theorem sound_kernel (c : Dev nD) (E : Set ℕ) (i : grid0.Coords)
    (arg1 : Memref sig .tc .vmem S10000x128 .f32) (harg1 : arg1.IsWhole) (arg2 : Memref sig .tc .vmem S10000x128 .f32) (harg2 : arg2.IsWhole)
    (arg3 : Memref sig .tc .vmem S128x128 .bf16) (harg3 : arg3.IsWhole) (arg4 : Memref sig .tc .vmem S1x128 .f32) (harg4 : arg4.IsWhole)
    (arg5 : Memref sig .tc .vmem S128x8 .bf16) (harg5 : arg5.IsWhole) (arg6 : Memref sig .tc .vmem S2x1 .f32) (harg6 : arg6.IsWhole)
    (arg7 : Memref sig .tc .vmem S2x2x10000 .f32) (harg7 : arg7.IsWhole)
    (xa xb : Vec F S10000x128 .f32) (w1 : Vec F S128x128 .bf16) (b1 : Vec F S1x128 .f32) (w2 : Vec F S128x8 .bf16) (b2 : Vec F S2x1 .f32)
    (K : PUnit → sProp 𝕄) :
    iprop(owns (c : Thread nD τ) arg1 fullShare xa ∗ owns (c : Thread nD τ) arg2 fullShare xb
        ∗ owns (c : Thread nD τ) arg3 fullShare w1 ∗ owns (c : Thread nD τ) arg4 fullShare b1
        ∗ owns (c : Thread nD τ) arg5 fullShare w2 ∗ owns (c : Thread nD τ) arg6 fullShare b2
        ∗ (∃ d, owns (c : Thread nD τ) arg7 fullShare d)
        ∗ (iprop(owns (c : Thread nD τ) arg1 fullShare xa ∗ owns (c : Thread nD τ) arg2 fullShare xb
            ∗ owns (c : Thread nD τ) arg3 fullShare w1 ∗ owns (c : Thread nD τ) arg4 fullShare b1
            ∗ owns (c : Thread nD τ) arg5 fullShare w2 ∗ owns (c : Thread nD τ) arg6 fullShare b2
            ∗ owns (c : Thread nD τ) arg7 fullShare (out6 xa xb w1 b1 w2 b2)) -∗ K ⟨⟩))
      ⊢ wp frame (wpE (defs₀ (F := F)) Variants.none c none) E
          (cc0__mlp_block i arg1 harg1 arg2 harg2 arg3 harg3 arg4 harg4 arg5 harg5 arg6 harg6 arg7 harg7) K := by
  simp only [cc0__mlp_block_eq_skeleton]; unfold cc0__mlp_block_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  -- the body runs to its return; what is left to show is the continuation's premise
  sl_exec
  sl_step
  iapply Hk
  -- the six inputs are only read: each comes back with the contents it had
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  -- the output block holds the eight stores over whatever it held before
  iexists _; isplitr
  swap; · iexact H7
  ipureintro
  -- the stores cover the block, so it reads as their overlay, nothing of the earlier contents left
  refine (View.read_writes_eq_canon _ _ _ (cover6 _ _ _ _ _ _ _ _)).trans ?_
  -- a load of a whole buffer through its full rectangle at zero offsets is the buffer; each stored value is `piece`
  sl_unfold_run_names
  simp only [View.readAt_eq_ld, View.ld_unit_zero (S := S128x128) hz2, View.ld_unit_zero (S := S1x128) hz2,
    View.ld_unit_zero (S := S128x8) hz2, View.ld_unit_zero (S := S2x1) hz2,
    pay6_eq, pay7_eq, pay9_eq, pay11_eq, pay12_eq, pay1_eq, pay2_eq]
  rfl

end Cert.KernelIdeal.Mlp

end
-- ==== Proof.KernelIdeal.Data.lean ====
/-
  The pipeline's proof data and the body obligation. At a parameter `V` — the core's buffer contents when the region
  is entered — each window's block at a grid point is read off its array; an input's staging buffer holds that block
  at every point, fetched there or not; the output's holds `out6` of the six input blocks. The features' array is
  handed to the pipeline through TWO windows (the even and the odd blocks of 10000 rows), so it is held at half the
  full share by each; every other input array is held whole.
-/
import proofs.«172818_g67224828117284_cont_sun_c4_631_34_alg».proof.Proof.KernelIdeal.Body
import proofs.«172818_g67224828117284_cont_sun_c4_631_34_alg».proof.Proof.Gen.KernelIdeal.Points
import Idealize.ShloMosaic.Lib.Pipeline.Frame

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The proof data -/

/-- The proof data on core `c`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t = iblk V c 5 t := by dsimp only [dat0]
theorem after_6 (c : Dev nD) (t : Fin cfg0.N) : (dat0 V c).after 6 t
    = out6 (iblk V c 0 t) (iblk V c 1 t) (iblk V c 2 t) (iblk V c 3 t) (iblk V c 4 t) (iblk V c 5 t) := by dsimp only [dat0]

/-- Input window 0's staging buffer holds its block at every point, fetched there or not: unfetched, the block index has
    not moved, and the body leaves the block in place. -/
theorem before_0 (c : Dev nD) (t : Fin cfg0.N) (d) : (dat0 V c).before 0 t d = iblk V c 0 t :=
  ((dat0 V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1's staging buffer holds its block at every point, fetched there or not: unfetched, the block index has
    not moved, and the body leaves the block in place. -/
theorem before_1 (c : Dev nD) (t : Fin cfg0.N) (d) : (dat0 V c).before 1 t d = iblk V c 1 t :=
  ((dat0 V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input window 2's staging buffer holds its block at every point, fetched there or not: unfetched, the block index has
    not moved, and the body leaves the block in place. -/
theorem before_2 (c : Dev nD) (t : Fin cfg0.N) (d) : (dat0 V c).before 2 t d = iblk V c 2 t :=
  ((dat0 V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Input window 3's staging buffer holds its block at every point, fetched there or not: unfetched, the block index has
    not moved, and the body leaves the block in place. -/
theorem before_3 (c : Dev nD) (t : Fin cfg0.N) (d) : (dat0 V c).before 3 t d = iblk V c 3 t :=
  ((dat0 V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
/-- Input window 4's staging buffer holds its block at every point, fetched there or not: unfetched, the block index has
    not moved, and the body leaves the block in place. -/
theorem before_4 (c : Dev nD) (t : Fin cfg0.N) (d) : (dat0 V c).before 4 t d = iblk V c 4 t :=
  ((dat0 V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
/-- Input window 5's staging buffer holds its block at every point, fetched there or not: unfetched, the block index has
    not moved, and the body leaves the block in place. -/
theorem before_5 (c : Dev nD) (t : Fin cfg0.N) (d) : (dat0 V c).before 5 t d = iblk V c 5 t :=
  ((dat0 V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat0 V c).Φ t.succ = (dat0 V c).Φ t.castSucc from rfl,
    show (dat0 V c).owesAt () t.succ = (dat0 V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Mlp

end
-- ==== Proof.KernelIdeal.Shared.lean ====
/-
  The arrays the pipeline is handed, when two windows share one. The pipeline holds, per window, its array at the
  window's share; the core holds, per DISTINCT buffer behind those arrays, the buffer whole. The features' array is
  behind windows 0 and 1: entering the region its full share is split into its two halves, one per window; leaving it
  the two halves — both still at the entry contents, an input being only read — are joined again. Every other buffer
  is behind one window and passes whole.
-/
import proofs.«172818_g67224828117284_cont_sun_c4_631_34_alg».proof.Proof.KernelIdeal.Data
import Idealize.ShloMosaic.Lib.Pipeline.Kit

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs_chain (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_v0) ↦{fullShare} Vv main_v0)
          ∗ (((c : Thread nD τ).loc main_v1) ↦{fullShare} Vv main_v1) ∗ (((c : Thread nD τ).loc main_v3) ↦{fullShare} Vv main_v3)
          ∗ (((c : Thread nD τ).loc main_v4) ↦{fullShare} Vv main_v4) ∗ (((c : Thread nD τ).loc main_v5) ↦{fullShare} Vv main_v5)) := by
  unfold Pipeline.arrBufs
  exact bigSep_eq_bigSepL_of_eq [main_arg0, main_v0, main_v1, main_v3, main_v4, main_v5] (by decide) (by decide) _

/-- The pipeline's arrays, window by window, each at its share. -/
theorem arrays_chain (c : Dev nD) (Fv : (w : Fin cfg0.W) → Buf (Elt F) ((cfg0.win w).arr.view.loc (c : Thread nD τ))) :
    ((dat0 V c).arrays Fv : sProp 𝕄)
      = iprop((((c : Thread nD τ).loc main_arg0) ↦{fullShare.left} Fv 0) ∗ (((c : Thread nD τ).loc main_arg0) ↦{fullShare.right} Fv 1)
          ∗ (((c : Thread nD τ).loc main_v0) ↦{fullShare} Fv 2) ∗ (((c : Thread nD τ).loc main_v1) ↦{fullShare} Fv 3)
          ∗ (((c : Thread nD τ).loc main_v3) ↦{fullShare} Fv 4) ∗ (((c : Thread nD τ).loc main_v4) ↦{fullShare} Fv 5)
          ∗ (((c : Thread nD τ).loc main_v5) ↦{fullShare} Fv 6)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ]
  rfl

/-- ENTRY: the buffers behind the arrays, whole at contents `Vv`, are the pipeline's arrays at contents read off `Vv`. -/
theorem arrays_of_arrBufs (c : Dev nD) (Vv : (b : Ref sig .tc) → Buf (Elt F) ((c : Thread nD τ).loc b))
    (Fv : (w : Fin cfg0.W) → Buf (Elt F) ((cfg0.win w).arr.view.loc (c : Thread nD τ)))
    (h0 : Fv 0 = Vv main_arg0) (h1 : Fv 1 = Vv main_arg0) (h2 : Fv 2 = Vv main_v0) (h3 : Fv 3 = Vv main_v1)
    (h4 : Fv 4 = Vv main_v3) (h5 : Fv 5 = Vv main_v4) (h6 : Fv 6 = Vv main_v5) :
    (Pipeline.arrBufs (Ix := Unit) (Name := ℕ) (U := UR sig nD τ) (Lvl := ℕ) spec0 c Vv : sProp 𝕄) ⊢ (dat0 V c).arrays Fv := by
  rw [arrBufs_chain, arrays_chain, h0, h1, h2, h3, h4, h5, h6]
  iintro ⟨Hx, H2, H3, H4, H5, H6⟩
  ihave Hx' := (pointsTo_share (PosShare.mem_left_op_right fullShare)).1 $$ Hx
  icases Hx' with ⟨Hl, Hr⟩
  isplitl [Hl]; · iexact Hl
  isplitl [Hr]; · iexact Hr
  isplitl [H2]; · iexact H2
  isplitl [H3]; · iexact H3
  isplitl [H4]; · iexact H4
  isplitl [H5]; · iexact H5
  iexact H6

/-- EXIT: the pipeline's arrays at contents read off `Vv` are the buffers behind them whole at `Vv`. -/
theorem arrBufs_of_arrays (c : Dev nD) (Vv : (b : Ref sig .tc) → Buf (Elt F) ((c : Thread nD τ).loc b))
    (Fv : (w : Fin cfg0.W) → Buf (Elt F) ((cfg0.win w).arr.view.loc (c : Thread nD τ)))
    (h0 : Fv 0 = Vv main_arg0) (h1 : Fv 1 = Vv main_arg0) (h2 : Fv 2 = Vv main_v0) (h3 : Fv 3 = Vv main_v1)
    (h4 : Fv 4 = Vv main_v3) (h5 : Fv 5 = Vv main_v4) (h6 : Fv 6 = Vv main_v5) :
    ((dat0 V c).arrays Fv : sProp 𝕄) ⊢ Pipeline.arrBufs (Ix := Unit) (Name := ℕ) (U := UR sig nD τ) (Lvl := ℕ) spec0 c Vv := by
  rw [arrBufs_chain, arrays_chain, h0, h1, h2, h3, h4, h5, h6]
  iintro ⟨Hl, Hr, H2, H3, H4, H5, H6⟩
  isplitl [Hl Hr]
  · iapply (pointsTo_share (PosShare.mem_left_op_right fullShare)).2
    isplitl [Hl]; · iexact Hl
    iexact Hr
  isplitl [H2]; · iexact H2
  isplitl [H3]; · iexact H3
  isplitl [H4]; · iexact H4
  isplitl [H5]; · iexact H5
  iexact H6

end Cert.KernelIdeal.Mlp

end
-- ==== Proof.KernelIdeal.Fold.lean ====
/-
  The buffer contents at each boundary of @main, as a fold from the launch memory: after each stretch of host
  operations the buffers hold the operations' results; the kernel region changes one buffer, its result array, which
  ends at what the pipeline's write-backs leave.
-/
import proofs.«172818_g67224828117284_cont_sun_c4_631_34_alg».proof.Proof.KernelIdeal.Data
import Idealize.ShloMosaic.Lib.StableHlo.Run

noncomputable section

namespace Cert.KernelIdeal.Mlp

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch, -/
abbrev W1 : Dev nD → Valuation τ sig (Elt F) := fun c => StableHlo.after hostOps0 (W0 m ρ c)
/-- the padding, -/
abbrev W2 : Dev nD → Valuation τ sig (Elt F) := fun c => StableHlo.after hostOps0_1 (W1 m ρ c)
/-- and the third stretch: the region's entry. -/
abbrev W3 : Dev nD → Valuation τ sig (Elt F) := fun c => StableHlo.after hostOps0_2 (W2 m ρ c)
/-- The same read at the TensorCore's references (what the proof data take). -/
abbrev V3 : (c : Dev nD) → (b : Ref sig .tc) → Buf (Elt F) ((c : Thread nD τ).loc b) := fun c b => W3 m ρ c b
/-- At the region's exit: the result array at what the write-backs leave, every other buffer as entered. -/
def W4 (c : Dev nD) : Valuation τ sig (Elt F) :=
  Function.update (W3 m ρ c) (Proc.devRef .tc main_v5) ((dat0 (V3 m ρ) c).arrAt 6 cfg0.N)
abbrev V4 : (c : Dev nD) → (b : Ref sig .tc) → Buf (Elt F) ((c : Thread nD τ).loc b) := fun c b => W4 m ρ c b
/-- After the last stretch: the end. -/
abbrev W5 : Dev nD → Valuation τ sig (Elt F) := fun c => StableHlo.after hostOps1 (W4 m ρ c)

theorem W4_v5 (c : Dev nD) : W4 m ρ c (Proc.devRef .tc main_v5) = (dat0 (V3 m ρ) c).arrAt 6 cfg0.N := by
  unfold W4; exact Function.update_self ..
theorem W4_of_ne (c : Dev nD) (b : Ref sig .tc) (hb : b ≠ main_v5) : W4 m ρ c (Proc.devRef .tc b) = W3 m ρ c (Proc.devRef .tc b) := by
  unfold W4; exact Function.update_of_ne (StableHlo.devRef_ne_of_ne hb) ..

end Cert.KernelIdeal.Mlp

end
-- ==== Proof.KernelIdeal.Run.lean ====
/-
  The run of @main: three stretches of host operations (the first-layer weights converted, the first bias reshaped,
  the class weights padded to eight columns and converted, the second bias reshaped), the kernel region, and a last
  stretch (the region's result transposed and reshaped to rows by classes). The buffer contents at each boundary are a
  fold from the launch memory; the region changes one buffer, its result array, which ends at what the pipeline's
  write-backs leave. Every weakly fair execution terminates, and the final memory holds every unscoped buffer at the
  last boundary's contents.
-/
import proofs.«172818_g67224828117284_cont_sun_c4_631_34_alg».proof.Proof.KernelIdeal.Shared
import proofs.«172818_g67224828117284_cont_sun_c4_631_34_alg».proof.Proof.KernelIdeal.Fold
import Idealize.ShloMosaic.Lib.Pipeline.RegionsLoop
import Idealize.ShloMosaic.Lib.Pipeline.FrameSuffix

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The region's arrays in and out of the unscoped buffers -/

/-- ENTRY: every unscoped buffer at the entry contents is the pipeline's arrays at their entry contents — the features'
    array split between its two windows — and the buffers no window stages. -/
theorem entry_split (c : Dev nD) :
    (StableHlo.held (c : Thread nD τ) (Pipeline.ucRefs τ sig) (W3 m ρ c) : sProp 𝕄)
      ⊢ iprop((dat0 (V3 m ρ) c).arrays ((dat0 (V3 m ρ) c).arrAt · 0)
          ∗ Pipeline.unscopedRest (Ix := Unit) (Name := ℕ) (U := UR sig nD τ) (Lvl := ℕ) spec0 c (V3 m ρ c)) := by
  rw [← Pipeline.unscopedBufs_held (Ix := Unit) (Name := ℕ) (U := UR sig nD τ) (Lvl := ℕ) c (W3 m ρ c),
    Pipeline.unscopedBufs_split₀ cfgs 0 winFacts₀0.arr_unscoped c (V3 m ρ c)]
  exact sep_mono (arrays_of_arrBufs (V3 m ρ) c (V3 m ρ c) _ rfl rfl rfl rfl rfl rfl rfl) .rfl

/-- EXIT: the arrays as the pipeline leaves them — the inputs as entered, the result at its write-backs — and the
    buffers no window stages are every unscoped buffer at the exit contents. -/
theorem exit_join (c : Dev nD) :
    iprop((dat0 (V3 m ρ) c).arrays ((dat0 (V3 m ρ) c).arrAt · cfg0.N)
        ∗ Pipeline.unscopedRest (Ix := Unit) (Name := ℕ) (U := UR sig nD τ) (Lvl := ℕ) spec0 c (V3 m ρ c))
      ⊢ (StableHlo.held (c : Thread nD τ) (Pipeline.ucRefs τ sig) (W4 m ρ c) : sProp 𝕄) := by
  rw [← Pipeline.unscopedBufs_held (Ix := Unit) (Name := ℕ) (U := UR sig nD τ) (Lvl := ℕ) c (W4 m ρ c),
    Pipeline.unscopedBufs_split₀ cfgs 0 winFacts₀0.arr_unscoped c (V4 m ρ c)]
  refine sep_mono (arrBufs_of_arrays (V3 m ρ) c (V4 m ρ c) _ ?_ ?_ ?_ ?_ ?_ ?_ ?_) (Entails.of_eq ?_)
  · exact ((dat0 (V3 m ρ) c).arrAt_in 0 rfl _).trans ((A_eq (V3 m ρ) c 0).trans (W4_of_ne m ρ c main_arg0 (by decide)).symm)
  · exact ((dat0 (V3 m ρ) c).arrAt_in 1 rfl _).trans ((A_eq (V3 m ρ) c 1).trans (W4_of_ne m ρ c main_arg0 (by decide)).symm)
  · exact ((dat0 (V3 m ρ) c).arrAt_in 2 rfl _).trans ((A_eq (V3 m ρ) c 2).trans (W4_of_ne m ρ c main_v0 (by decide)).symm)
  · exact ((dat0 (V3 m ρ) c).arrAt_in 3 rfl _).trans ((A_eq (V3 m ρ) c 3).trans (W4_of_ne m ρ c main_v1 (by decide)).symm)
  · exact ((dat0 (V3 m ρ) c).arrAt_in 4 rfl _).trans ((A_eq (V3 m ρ) c 4).trans (W4_of_ne m ρ c main_v3 (by decide)).symm)
  · exact ((dat0 (V3 m ρ) c).arrAt_in 5 rfl _).trans ((A_eq (V3 m ρ) c 5).trans (W4_of_ne m ρ c main_v4 (by decide)).symm)
  · exact (W4_v5 m ρ c).symm
  · unfold Pipeline.unscopedRest
    refine bigSep_congr fun b hb => ?_
    rw [show V4 m ρ c b = V3 m ρ c b from W4_of_ne m ρ c b fun e =>
      (Finset.mem_sdiff.mp hb).2 (Finset.mem_image.mpr ⟨6, Finset.mem_univ _, e.symm⟩)]

/-! ## The region as a segment -/

set_option backward.isDefEq.respectTransparency.types false in
/-- The kernel region over the thread state: entered from every unscoped buffer at `W3`, left at `W4`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    iintro ⟨⟨Hub, Hp, HO⟩, -, -⟩
    ihave H := (entry_split m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_join m ρ c)
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)) ]

/-- @main is the run of the segments. -/
theorem main_run (c : Dev nD) : main (F := F) c = Pipeline.Seg.run (segs m ρ) := (main_chain c).trans (by chain_rfl)

set_option backward.isDefEq.respectTransparency.types false in
/-- From any memory with zero counters, every weakly fair execution of @main terminates, and the final memory has every
    unscoped buffer of each core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (StableHlo.after hostOps1 (W4 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Mlp

end
-- ==== Proof.KernelIdeal.Tail.lean ====
/-
  The end of @main, read at an entry. After the region its result array, of shape [10, 2, 10000] (block of rows, class,
  row within the block), is transposed to [10, 10000, 2] and reshaped to [100000, 2]: row `n`, class `cc` of the
  program's result is the region's result at block `n / 10000`, class `cc`, row `n % 10000`. No host operation after
  the region, nor the region, writes an argument: each ends as launched.
-/
import proofs.«172818_g67224828117284_cont_sun_c4_631_34_alg».proof.Proof.KernelIdeal.Fold
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Mlp

open Idealize.ShloMosaic Idealize.ShloMosaic.TcCoe Idealize.ShloMosaic.ValueIdx
open Idealize.SL Idealize.SL.Sem
open Cert.KernelIdeal Cert.KernelIdeal.Gen

variable {F : FTy → Type} [FloatOps F]

variable (m : (ℓ : Loc nD τ sig) → Buf (Elt F) ℓ) (ρ : Dev nD → PrngReg)

/-- A `[10, 10000, 2]` array cast to `[100000, 2]` reads, at `(n, cc)`, the operand at `(n / 10000, n % 10000, cc)`:
    both have row-major position `2 n + cc`. -/
private theorem shapeCast_rows_apply {α : Type} (y : S10x10000x2.Idx → α) (h : S10x10000x2.ShapeCasts S100000x2)
    (n : Fin 100000) (cc : Fin 2) :
    shapeCast S100000x2 y h (ix2 n cc)
      = y (ix3 (⟨n.val / 10000, by omega⟩ : Fin 10) (⟨n.val % 10000, by omega⟩ : Fin 10000) cc) :=
  shapeCast_apply y h _ _ (by
    rw [Shape.rowMajor_val_three, Shape.rowMajor_val_two]
    show ((n.val / 10000) * 10000 + n.val % 10000) * 2 + cc.val = n.val * 2 + cc.val
    have := Nat.div_add_mod n.val 10000
    omega)

/-- The transposed, then cast, array read at `(n, cc)`. -/
private theorem tail_apply {α : Type} (y : S10x2x10000.Idx → α) (ht : S10x2x10000.Transposes [0, 2, 1] S10x10000x2)
    (hc : S10x10000x2.ShapeCasts S100000x2) (n : Fin 100000) (cc : Fin 2) :
    shapeCast S100000x2 (transpose S10x10000x2 [0, 2, 1] y ht) hc (ix2 n cc)
      = y (ix3 (⟨n.val / 10000, by omega⟩ : Fin 10) cc (⟨n.val % 10000, by omega⟩ : Fin 10000)) := by
  rw [shapeCast_rows_apply, transpose_ix3_021_apply]

/-- The program's result array: the region's, transposed and cast. -/
private theorem W5_v7 (c : Dev nD) :
    W5 m ρ c (Proc.devRef .tc main_v7)
      = shapeCast S100000x2 (transpose S10x10000x2 [0, 2, 1] (W4 m ρ c (Proc.devRef .tc main_v5))
          transposes_S10x2x10000_S10x10000x2_0_2_1) shapeCasts_S10x10000x2_S100000x2 := by
  show StableHlo.after hostOps1 _ (Proc.devRef .tc main_v7) = _
  after_results
  rfl

/-- The program's result at row `n`, class `cc`, from the region's result array. -/
theorem W5_v7_apply (c : Dev nD) (n : Fin 100000) (cc : Fin 2) :
    W5 m ρ c (Proc.devRef .tc main_v7) (ix2 n cc)
      = W4 m ρ c (Proc.devRef .tc main_v5) (ix3 (⟨n.val / 10000, by omega⟩ : Fin 10) cc (⟨n.val % 10000, by omega⟩ : Fin 10000)) := by
  rw [W5_v7]
  exact tail_apply _ _ _ n cc

/-! ## The arguments

Every reference a host operation of @main writes is one of its own values, listed here; the region writes its result
array. An argument is none of these, so each boundary's contents at it are the launch memory's. -/

/-- The references the host operations write: each operation's result. -/
private abbrev written : List (Ref sig .tc) :=
  [main_v0, main_v1, main_c, main_call0_v0, main_v2, main_v3, main_v4, main_v6, main_v7]

/-- An operation whose one result is in a list writes within the list. -/
private theorem writes_sub_of_mem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

private theorem hostOps0_writes :
    (hostOps0 : List (HloOp τ sig (Elt F))).Forall fun op => op.writes ⊆ (written.map (Proc.devRef (τ := τ) .tc)).toFinset :=
  ⟨writes_sub_of_mem (by decide), writes_sub_of_mem (by decide), writes_sub_of_mem (by decide)⟩
private theorem hostOps0_1_writes :
    (hostOps0_1 : List (HloOp τ sig (Elt F))).Forall fun op => op.writes ⊆ (written.map (Proc.devRef (τ := τ) .tc)).toFinset :=
  ⟨writes_sub_of_mem (by decide), writes_sub_of_mem (by decide)⟩
private theorem hostOps0_2_writes :
    (hostOps0_2 : List (HloOp τ sig (Elt F))).Forall fun op => op.writes ⊆ (written.map (Proc.devRef (τ := τ) .tc)).toFinset :=
  ⟨writes_sub_of_mem (by decide), writes_sub_of_mem (by decide)⟩
private theorem hostOps1_writes :
    (hostOps1 : List (HloOp τ sig (Elt F))).Forall fun op => op.writes ⊆ (written.map (Proc.devRef (τ := τ) .tc)).toFinset :=
  ⟨writes_sub_of_mem (by decide), writes_sub_of_mem (by decide)⟩

/-- A reference that no host operation writes and that is not the region's result array ends as launched. -/
private theorem W5_of_not_written (c : Dev nD) (r : Ref sig .tc) (hr : r ∉ written) (h5 : r ≠ main_v5) :
    W5 m ρ c (Proc.devRef .tc r) = m ((c : Thread nD τ).loc r) := by
  show StableHlo.after hostOps1 (W4 m ρ c) (Proc.devRef .tc r) = _
  rw [StableHlo.after_of_writes_sub hostOps1 _ hostOps1_writes hr, W4_of_ne m ρ c r h5]
  show StableHlo.after hostOps0_2 (W2 m ρ c) (Proc.devRef .tc r) = _
  rw [StableHlo.after_of_writes_sub hostOps0_2 _ hostOps0_2_writes hr]
  show StableHlo.after hostOps0_1 (W1 m ρ c) (Proc.devRef .tc r) = _
  rw [StableHlo.after_of_writes_sub hostOps0_1 _ hostOps0_1_writes hr]
  show StableHlo.after hostOps0 (W0 m ρ c) (Proc.devRef .tc r) = _
  rw [StableHlo.after_of_writes_sub hostOps0 _ hostOps0_writes hr]

/-- Each argument ends as launched. -/
theorem W5_arg0 (c : Dev nD) : W5 m ρ c (Proc.devRef .tc main_arg0) = m ((c : Thread nD τ).loc main_arg0) :=
  W5_of_not_written m ρ c main_arg0 (by decide) (by decide)
theorem W5_arg1 (c : Dev nD) : W5 m ρ c (Proc.devRef .tc main_arg1) = m ((c : Thread nD τ).loc main_arg1) :=
  W5_of_not_written m ρ c main_arg1 (by decide) (by decide)
theorem W5_arg2 (c : Dev nD) : W5 m ρ c (Proc.devRef .tc main_arg2) = m ((c : Thread nD τ).loc main_arg2) :=
  W5_of_not_written m ρ c main_arg2 (by decide) (by decide)
theorem W5_arg3 (c : Dev nD) : W5 m ρ c (Proc.devRef .tc main_arg3) = m ((c : Thread nD τ).loc main_arg3) :=
  W5_of_not_written m ρ c main_arg3 (by decide) (by decide)
theorem W5_arg4 (c : Dev nD) : W5 m ρ c (Proc.devRef .tc main_arg4) = m ((c : Thread nD τ).loc main_arg4) :=
  W5_of_not_written m ρ c main_arg4 (by decide) (by decide)

end Cert.KernelIdeal.Mlp

end
-- ==== Proof.KernelIdeal.Frame.lean ====
/-
  The frame: from any memory with zero counters every weakly fair execution of @main terminates, nothing faulting, and the
  five argument arrays end as launched. It is the run of @main read at the arguments' buffers: the final memory holds every
  unscoped buffer at the last boundary's contents, and no host operation, nor the region, writes an argument.
-/
import proofs.«172818_g67224828117284_cont_sun_c4_631_34_alg».proof.Proof.KernelIdeal.Run
import proofs.«172818_g67224828117284_cont_sun_c4_631_34_alg».proof.Proof.KernelIdeal.Tail

noncomputable section

namespace Cert.KernelIdeal.Mlp

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ) (ρ : Dev nD → PrngReg)

/-- @main runs, and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_arg0 m ρ c),
     (h c _ (mem_uc main_arg1 (by decide))).trans (W5_arg1 m ρ c),
     (h c _ (mem_uc main_arg2 (by decide))).trans (W5_arg2 m ρ c),
     (h c _ (mem_uc main_arg3 (by decide))).trans (W5_arg3 m ρ c),
     (h c _ (mem_uc main_arg4 (by decide))).trans (W5_arg4 m ρ c)⟩) (run_main m ρ)

end Cert.KernelIdeal.Mlp

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.KernelIdeal.PieceValue.lean ====
/-
  One stored piece read at an entry, on the extended reals: for class `c` and row `r` of the chunk it is
  `∑ k, W2p[k, c] · max (∑ d, x[r, d] · W1[d, k] + b1[0, k]) 0 + b2[c, 0]` — the first product row by column into
  zeros, the bias broadcast down the rows, the positive part against a zero, the second product with the weights'
  axis 0 contracted against the hidden layer's axis 1 (so the result is class by row), its first two classes, the second
  bias broadcast along the rows. Changes of float format are the identity here.
-/
import proofs.«172818_g67224828117284_cont_sun_c4_631_34_alg».proof.Proof.KernelIdeal.BodyDefs
import proofs.«172818_g67224828117284_cont_sun_c4_631_34_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Mlp

open Idealize.ShloMosaic Idealize.ShloMosaic.TcCoe Idealize.ShloMosaic.ValueIdx
open Cert.KernelIdeal Cert.KernelIdeal.Gen

/-- A class among the two kept, as one of the eight columns of the padded weights. -/
abbrev cls8 (c : Fin 2) : Fin 8 := ⟨c.val, by omega⟩

/-! ## A product of a [K, R] operand by a [C, K] operand, both contracted over K

The left operand's axis 0 is contracted with the right operand's axis 1; the left operand's axis 1 and the right
operand's axis 0 survive, in that order, so the entry (p, q) of the [R, C] result is the sum over k of
l(k, p) · r(q, k): the product of the two transposes. -/

section Crossed

variable {R K C : ℕ}

/-- The dimension numbers of that product: no batch axes, one contracted axis on each side. -/
private structure IsCrossed (d : DotDims ⟨2, ![K, R]⟩ ⟨2, ![C, K]⟩ ⟨2, ![R, C]⟩) : Prop where
  lc : d.lhsContracting = [0]
  rc : d.rhsContracting = [1]
  ln : d.lhsNonContracting = [1]
  rn : d.rhsNonContracting = [0]
  lb : d.lhsBatch = []
  rb : d.rhsBatch = []

variable {d : DotDims ⟨2, ![K, R]⟩ ⟨2, ![C, K]⟩ ⟨2, ![R, C]⟩}

/-- A coordinate of an index depends on the axis' position only. -/
private theorem coord_at {s : Shape} (j : s.Idx) (a b : Nat) (ha : a < s.rank) (hb : b < s.rank) (e : a = b) :
    (j ⟨a, ha⟩).val = (j ⟨b, hb⟩).val := by subst e; rfl

/-- The left operand's column is the result's row. -/
private theorem crossed_lhs_col (h : IsCrossed d) (j : (⟨2, ![R, C]⟩ : Shape).Idx) (k : d.contr.Idx) :
    (d.lhsIdx j k 1).val = (j 0).val := by
  unfold DotDims.lhsIdx
  rw [dif_neg (by rw [h.lb]; exact List.not_mem_nil), dif_pos (by rw [h.ln]; exact List.mem_singleton.mpr rfl)]
  simp only [Fin.val_cast]
  exact coord_at j _ _ _ _ (by simp [h.lb, h.ln])

/-- The right operand's row is the result's column. -/
private theorem crossed_rhs_row (h : IsCrossed d) (j : (⟨2, ![R, C]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_at j _ _ _ _ (by simp [h.lb, h.ln, h.rn])

private theorem crossed_contr_rank (h : IsCrossed d) : d.contr.rank = 1 := by
  rw [d.rank_contr, h.lc]; rfl

private theorem crossed_contr_size (h : IsCrossed d) : d.contr.size ⟨0, by rw [crossed_contr_rank h]; exact Nat.one_pos⟩ = K := by
  rw [d.size_contr 0 (by rw [h.lc]; exact Nat.one_pos)]
  simp [h.lc]

/-- The sum over the contraction index is the sum over the shared axis. -/
private theorem crossed_sum_apply (h : IsCrossed d) {φ₁ φ₂ : FTy} (l : FVec Ideal ⟨2, ![K, R]⟩ φ₁) (r : FVec Ideal ⟨2, ![C, K]⟩ φ₂)
    (p : Fin R) (q : Fin C) :
    (∑ k : d.contr.Idx, l (d.lhsIdx (ix2 p q) k) * r (d.rhsIdx (ix2 p q) k)) = ∑ k : Fin K, l (ix2 k p) * r (ix2 q k) := by
  rw [← Equiv.sum_comp (contrEquiv1 d K (crossed_contr_rank h) (crossed_contr_size h)).symm]
  refine Finset.sum_congr rfl fun k _ => ?_
  have hk := contrEquiv1_symm_val d K (crossed_contr_rank h) (crossed_contr_size h) k
  have el : d.lhsIdx (ix2 p q) ((contrEquiv1 d K (crossed_contr_rank h) (crossed_contr_size h)).symm k) = ix2 k p :=
    funext fun a => Fin.ext (by
      match a with
      | ⟨0, _⟩ => exact (d.lhsIdx_val_of_single h.lc _ _).trans hk
      | ⟨1, _⟩ => exact crossed_lhs_col h _ _)
  have er : d.rhsIdx (ix2 p q) ((contrEquiv1 d K (crossed_contr_rank h) (crossed_contr_size h)).symm k) = ix2 q k :=
    funext fun a => Fin.ext (by
      match a with
      | ⟨0, _⟩ => exact crossed_rhs_row h _ _
      | ⟨1, _⟩ => exact (d.rhsIdx_val_of_single h.rc _ _).trans hk)
  rw [el, er]

/-- Such a product into a zero accumulator, read at (p, q). -/
private theorem crossed_matmul_zero_apply (h : IsCrossed d) {φ₁ φ₂ : FTy} (prec : Option ContractPrecision)
    (l : FVec Ideal ⟨2, ![K, R]⟩ φ₁) (r : FVec Ideal ⟨2, ![C, K]⟩ φ₂) (p : Fin R) (q : Fin C) :
    FloatOps.matmul d prec l r (constant ⟨2, ![R, C]⟩ .f32 0x00000000#32) (ix2 p q) = ∑ k : Fin K, l (ix2 k p) * r (ix2 q k) := by
  rw [Ideal.matmul_constant_zero_apply]
  exact crossed_sum_apply h l r p q

end Crossed

/-! ## One column broadcast over many -/

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products of the body -/

/-- The first product is row by column. -/
private theorem plain_first : PlainDot.IsPlain dot_S2500x128_S128x128_S2500x128_1_0_0_1_n_n := ⟨rfl, rfl, rfl, rfl, rfl, rfl⟩

/-- The second product contracts the weights' axis 0 against the hidden layer's axis 1. -/
private theorem crossed_second : IsCrossed dot_S128x8_S2500x128_S8x2500_0_1_1_0_n_n := ⟨rfl, rfl, rfl, rfl, rfl, rfl⟩

/-! ## The stages of a piece, each read at an entry -/

/-- The bias of the first layer, recast and narrowed, at column `k`: the bias itself. -/
private theorem bias_apply (b1 : FVec Ideal S1x128 .f32) (k : Fin 128) :
    k0_pay3 (F := Ideal) b1 (ix2 (0 : Fin 1) k) = b1 (ix2 (0 : Fin 1) k) :=
  congrFun (shapeCast_self b1 shapeCasts_S1x128_S1x128) (ix2 (0 : Fin 1) k)

/-- The zero the positive part is taken against. -/
private theorem zero_bf16 : (Scalar.ofBits (F := Ideal) .bf16 0x0000#16 : Ideal .bf16) = 0 := by
  show Ideal.ofBits .bf16 0x0000#16 = 0
  simp [Ideal.ofBits, Ideal.ieee]

/-- The hidden layer of the chunk at row `r`, unit `k`: the positive part of the first product plus the bias. -/
private theorem hidden_apply (b1 : FVec Ideal S1x128 .f32) (xc : FVec Ideal S2500x128 .f32) (w1 : FVec Ideal S128x128 .bf16)
    (r : Fin 2500) (k : Fin 128) :
    maximumf (F := Ideal)
        (addf
          (truncf .bf16
            (matmul dot_S2500x128_S128x128_S2500x128_1_0_0_1_n_n none (truncf .bf16 xc bitsLt_bf16_f32)
              (shapeCast S128x128 w1 shapeCasts_S128x128_S128x128) (constant S2500x128 .f32 0x00000000#32))
            bitsLt_bf16_f32)
          (broadcastTo S2500x128 (k0_pay3 (F := Ideal) b1) broadcasts_S1x128_S2500x128))
        (broadcast S2500x128 (Scalar.ofBits .bf16 0x0000#16)) (ix2 r k)
      = max ((∑ d : Fin 128, xc (ix2 r d) * w1 (ix2 d k)) + b1 (ix2 (0 : Fin 1) k)) 0 := by
  refine (maximumf_apply _ _ _).trans ?_
  refine congrArg₂ max ?_ zero_bf16
  refine (addf_apply _ _ _).trans ?_
  refine congrArg₂ (· + ·) ?_ ?_
  · refine (PlainDot.matmul_zero_apply plain_first none (truncf .bf16 xc bitsLt_bf16_f32)
      (shapeCast S128x128 w1 shapeCasts_S128x128_S128x128) r k).trans ?_
    refine Finset.sum_congr rfl fun d _ => ?_
    exact congrArg (xc (ix2 r d) * ·) (congrFun (shapeCast_self w1 shapeCasts_S128x128_S128x128) (ix2 d k))
  · refine (broadcastTo_1b_ab_apply _ broadcasts_S1x128_S2500x128 r k).trans ?_
    exact bias_apply b1 k

/-- One piece at class `c`, row `r` of its chunk. -/
theorem piece_apply (b1 : Vec Ideal S1x128 .f32) (xc : Vec Ideal S2500x128 .f32) (w1 : Vec Ideal S128x128 .bf16)
    (w2 : Vec Ideal S128x8 .bf16) (b2 : Vec Ideal S2x1 .f32) (c : Fin 2) (r : Fin 2500) :
    piece (F := Ideal) b1 xc w1 w2 b2 (ix3 (0 : Fin 1) c r)
      = (∑ k : Fin 128, w2 (ix2 k (cls8 c)) * max ((∑ d : Fin 128, xc (ix2 r d) * w1 (ix2 d k)) + b1 (ix2 (0 : Fin 1) k)) 0)
          + b2 (ix2 c (0 : Fin 1)) := by
  unfold piece k0_pay4
  refine (shapeCast_ab_1ab_apply _ shapeCasts_S2x2500_S1x2x2500 (0 : Fin 1) c r).trans ?_
  refine (addf_apply _ _ _).trans ?_
  refine congrArg₂ (· + ·) ?_ ?_
  · refine (slice2_axis0_apply 0 _ slices_S8x2500_o0_0_S2x2500 c r (cls8 c) (Nat.zero_add _).symm).trans ?_
    refine (crossed_matmul_zero_apply crossed_second none _ _ (cls8 c) r).trans ?_
    refine Finset.sum_congr rfl fun k _ => ?_
    refine congrArg₂ (· * ·) ?_ ?_
    · exact congrFun (shapeCast_self w2 shapeCasts_S128x8_S128x8) (ix2 k (cls8 c))
    · exact hidden_apply b1 xc w1 r k
  · refine (broadcastTo_a1_ab_apply _ broadcasts_S2x1_S2x2500 c r).trans ?_
    exact congrFun (shapeCast_self b2 shapeCasts_S2x1_S2x1) (ix2 c (0 : Fin 1))

end Cert.KernelIdeal.Mlp

end
-- ==== Proof.KernelIdeal.OutValue.lean ====
/-
  The block the body leaves, read at an entry: feature block `k` (0 for `xa`, 1 for `xb`), class `c`, row `r` of
  the block's 10000. The eight stored rectangles tile the block — rectangle (k, j) holds rows `2500 j` to
  `2500 j + 2499` of feature block `k` — so the entry is the piece of chunk `r / 2500` at row `r % 2500`, and a
  chunk's row `r % 2500` is the block's row `r`.
-/
import proofs.«172818_g67224828117284_cont_sun_c4_631_34_alg».proof.Proof.KernelIdeal.PieceValue

noncomputable section

open scoped BigOperators

namespace Cert.KernelIdeal.Mlp

open Idealize.ShloMosaic Idealize.ShloMosaic.TcCoe Idealize.ShloMosaic.ValueIdx
open Cert.KernelIdeal Cert.KernelIdeal.Gen

/-- The two-layer value at feature block `k`, class `c`, row `r`, as a function of the three coordinates. -/
private def entry (xa xb : Vec Ideal S10000x128 .f32) (w1 : Vec Ideal S128x128 .bf16) (b1 : Vec Ideal S1x128 .f32)
    (w2 : Vec Ideal S128x8 .bf16) (b2 : Vec Ideal S2x1 .f32) (k : Fin 2) (c : Fin 2) (r : Fin 10000) : EReal :=
  (∑ kk : Fin 128, w2 (ix2 kk (cls8 c))
      * max ((∑ d : Fin 128, (if k.val = 0 then xa else xb) (ix2 r d) * w1 (ix2 d kk)) + b1 (ix2 (0 : Fin 1) kk)) 0)
    + b2 (ix2 c (0 : Fin 1))

/-- The same as a function of the block's index. -/
private def blockFn (xa xb : Vec Ideal S10000x128 .f32) (w1 : Vec Ideal S128x128 .bf16) (b1 : Vec Ideal S1x128 .f32)
    (w2 : Vec Ideal S128x8 .bf16) (b2 : Vec Ideal S2x1 .f32) : Vec Ideal S2x2x10000 .f32 :=
  fun y => entry xa xb w1 b1 w2 b2 (y 0) (y 1) (y 2)

/-- A chunk of 2500 rows from row `o` on, read at its row `r`, is the block's row `o + r`. -/
private theorem ld_chunk (x : Vec Ideal S10000x128 .f32) (o : ℕ)
    (inbx : ∀ a, (![o, 0] : Fin 2 → ℕ) a + S2500x128.size a ≤ S10000x128.size a)
    (r : Fin 2500) (d : Fin 128) (h : o + r.val < 10000) :
    View.ld x (Rect.unit (s := S10000x128) ![o, 0] S2500x128.size inbx) (ix2 r d) = x (ix2 (⟨o + r.val, h⟩ : Fin 10000) d) := by
  show x _ = x _
  refine congrArg x (funext fun a => Fin.ext ?_)
  match a with
  | ⟨0, _⟩ => show o + 1 * r.val = o + r.val; omega
  | ⟨1, _⟩ => show 0 + 1 * d.val = d.val; omega

/-- The piece of the chunk from row `o` on of feature block `kn`, at its own index, is the block's function at that
    index placed in the block: first coordinate `kn`, the class kept, the row moved `o` along. -/
private theorem piece_at (xa xb : Vec Ideal S10000x128 .f32) (w1 : Vec Ideal S128x128 .bf16) (b1 : Vec Ideal S1x128 .f32)
    (w2 : Vec Ideal S128x8 .bf16) (b2 : Vec Ideal S2x1 .f32) (x : Vec Ideal S10000x128 .f32) (kn o : ℕ)
    (hx : x = if kn = 0 then xa else xb)
    (inbx : ∀ a, (![o, 0] : Fin 2 → ℕ) a + S2500x128.size a ≤ S10000x128.size a)
    (inbo : ∀ a, (![kn, 0, o] : Fin 3 → ℕ) a + S1x2x2500.size a ≤ S2x2x10000.size a)
    (y : S1x2x2500.Idx) :
    piece (F := Ideal) b1 (View.ld x (Rect.unit (s := S10000x128) ![o, 0] S2500x128.size inbx)) w1 w2 b2 y
      = blockFn xa xb w1 b1 w2 b2 ((Rect.unit (s := S2x2x10000) ![kn, 0, o] S1x2x2500.size inbo).emb y) := by
  obtain ⟨a, c, r, rfl⟩ : ∃ (a : Fin 1) (c : Fin 2) (r : Fin 2500), y = ix3 a c r := ⟨y 0, y 1, y 2, eq_ix3 y⟩
  obtain rfl : a = 0 := Subsingleton.elim _ _
  have hk : kn < 2 := by have := inbo ⟨0, by decide⟩; simpa using this
  have ho : o + 2500 ≤ 10000 := by have := inbo ⟨2, by decide⟩; simpa using this
  have hr : o + r.val < 10000 := by have := r.isLt; omega
  rw [piece_apply]
  show _ = entry xa xb w1 b1 w2 b2 _ _ _
  have e0 : ((Rect.unit (s := S2x2x10000) ![kn, 0, o] S1x2x2500.size inbo).emb (ix3 (0 : Fin 1) c r)) 0 = (⟨kn, hk⟩ : Fin 2) :=
    Fin.ext (by show kn + 1 * 0 = kn; omega)
  have e1 : ((Rect.unit (s := S2x2x10000) ![kn, 0, o] S1x2x2500.size inbo).emb (ix3 (0 : Fin 1) c r)) 1 = c :=
    Fin.ext (by show 0 + 1 * c.val = c.val; omega)
  have e2 : ((Rect.unit (s := S2x2x10000) ![kn, 0, o] S1x2x2500.size inbo).emb (ix3 (0 : Fin 1) c r)) 2 = (⟨o + r.val, hr⟩ : Fin 10000) :=
    Fin.ext (by show o + 1 * r.val = o + r.val; omega)
  rw [e0, e1, e2]
  unfold entry
  subst hx
  refine congrArg (fun t => t + b2 (ix2 c (0 : Fin 1))) (Finset.sum_congr rfl fun kk _ => ?_)
  refine congrArg (fun t => w2 (ix2 kk (cls8 c)) * max (t + b1 (ix2 (0 : Fin 1) kk)) 0) (Finset.sum_congr rfl fun d _ => ?_)
  exact congrArg (fun t => t * w1 (ix2 d kk)) (ld_chunk _ o inbx r d hr)

/-- An entry of feature block `kn` whose row lies in the 2500 rows from `o` on is in that chunk's rectangle. -/
private theorem mem_chunk (kn o : ℕ)
    (inbo : ∀ a, (![kn, 0, o] : Fin 3 → ℕ) a + S1x2x2500.size a ≤ S2x2x10000.size a)
    (k c : Fin 2) (r : Fin 10000) (hk : k.val = kn) (h1 : o ≤ r.val) (h2 : r.val < o + 2500) :
    ix3 k c r ∈ (Rect.unit (s := S2x2x10000) ![kn, 0, o] S1x2x2500.size inbo).set := by
  refine Rect.mem_set_unit.mpr fun a => ?_
  match a with
  | ⟨0, _⟩ => show kn ≤ k.val ∧ k.val < kn + 1; omega
  | ⟨1, _⟩ => show 0 ≤ c.val ∧ c.val < 0 + 2; have := c.isLt; omega
  | ⟨2, _⟩ => show o ≤ r.val ∧ r.val < o + 2500; omega

/-- The output block at feature block `k`, class `c`, row `r`. -/
theorem out6_apply (xa xb : Vec Ideal S10000x128 .f32) (w1 : Vec Ideal S128x128 .bf16) (b1 : Vec Ideal S1x128 .f32)
    (w2 : Vec Ideal S128x8 .bf16) (b2 : Vec Ideal S2x1 .f32) (k : Fin 2) (c : Fin 2) (r : Fin 10000) :
    out6 (F := Ideal) xa xb w1 b1 w2 b2 (ix3 k c r)
      = (∑ kk : Fin 128, w2 (ix2 kk (cls8 c))
            * max ((∑ d : Fin 128, (if k.val = 0 then xa else xb) (ix2 r d) * w1 (ix2 d kk)) + b1 (ix2 (0 : Fin 1) kk)) 0)
          + b2 (ix2 c (0 : Fin 1)) := by
  show out6 (F := Ideal) xa xb w1 b1 w2 b2 (ix3 k c r) = blockFn xa xb w1 b1 w2 b2 (ix3 k c r)
  unfold out6
  refine View.canon_apply_of_pieces (blockFn xa xb w1 b1 w2 b2) _ ?_ (ix3 k c r) ?_
  · intro p hp
    simp only [List.mem_cons, List.not_mem_nil, or_false] at hp
    rcases hp with rfl | rfl | rfl | rfl | rfl | rfl | rfl | rfl
    · exact fun y => piece_at xa xb w1 b1 w2 b2 xb 1 7500 rfl inb_S10000x128_S2500x128_7500_0 inb_S2x2x10000_S1x2x2500_1_0_7500 y
    · exact fun y => piece_at xa xb w1 b1 w2 b2 xb 1 5000 rfl inb_S10000x128_S2500x128_5000_0 inb_S2x2x10000_S1x2x2500_1_0_5000 y
    · exact fun y => piece_at xa xb w1 b1 w2 b2 xb 1 2500 rfl inb_S10000x128_S2500x128_2500_0 inb_S2x2x10000_S1x2x2500_1_0_2500 y
    · exact fun y => piece_at xa xb w1 b1 w2 b2 xb 1 0 rfl inb_S10000x128_S2500x128_0_0 inb_S2x2x10000_S1x2x2500_1_0_0 y
    · exact fun y => piece_at xa xb w1 b1 w2 b2 xa 0 7500 rfl inb_S10000x128_S2500x128_7500_0 inb_S2x2x10000_S1x2x2500_0_0_7500 y
    · exact fun y => piece_at xa xb w1 b1 w2 b2 xa 0 5000 rfl inb_S10000x128_S2500x128_5000_0 inb_S2x2x10000_S1x2x2500_0_0_5000 y
    · exact fun y => piece_at xa xb w1 b1 w2 b2 xa 0 2500 rfl inb_S10000x128_S2500x128_2500_0 inb_S2x2x10000_S1x2x2500_0_0_2500 y
    · exact fun y => piece_at xa xb w1 b1 w2 b2 xa 0 0 rfl inb_S10000x128_S2500x128_0_0 inb_S2x2x10000_S1x2x2500_0_0_0 y
  · have hr := r.isLt
    have hk : k.val = 1 ∨ k.val = 0 := by have := k.isLt; omega
    have hj : (7500 ≤ r.val ∧ r.val < 7500 + 2500) ∨ (5000 ≤ r.val ∧ r.val < 5000 + 2500)
        ∨ (2500 ≤ r.val ∧ r.val < 2500 + 2500) ∨ (0 ≤ r.val ∧ r.val < 0 + 2500) := by omega
    rcases hk with hk | hk <;> rcases hj with ⟨h1, h2⟩ | ⟨h1, h2⟩ | ⟨h1, h2⟩ | ⟨h1, h2⟩
    · exact ⟨_, .head _, mem_chunk 1 7500 inb_S2x2x10000_S1x2x2500_1_0_7500 k c r hk h1 h2⟩
    · exact ⟨_, .tail _ (.head _), mem_chunk 1 5000 inb_S2x2x10000_S1x2x2500_1_0_5000 k c r hk h1 h2⟩
    · exact ⟨_, .tail _ (.tail _ (.head _)), mem_chunk 1 2500 inb_S2x2x10000_S1x2x2500_1_0_2500 k c r hk h1 h2⟩
    · exact ⟨_, .tail _ (.tail _ (.tail _ (.head _))), mem_chunk 1 0 inb_S2x2x10000_S1x2x2500_1_0_0 k c r hk h1 h2⟩
    · exact ⟨_, .tail _ (.tail _ (.tail _ (.tail _ (.head _)))), mem_chunk 0 7500 inb_S2x2x10000_S1x2x2500_0_0_7500 k c r hk h1 h2⟩
    · exact ⟨_, .tail _ (.tail _ (.tail _ (.tail _ (.tail _ (.head _))))), mem_chunk 0 5000 inb_S2x2x10000_S1x2x2500_0_0_5000 k c r hk h1 h2⟩
    · exact ⟨_, .tail _ (.tail _ (.tail _ (.tail _ (.tail _ (.tail _ (.head _)))))), mem_chunk 0 2500 inb_S2x2x10000_S1x2x2500_0_0_2500 k c r hk h1 h2⟩
    · exact ⟨_, .tail _ (.tail _ (.tail _ (.tail _ (.tail _ (.tail _ (.tail _ (.head _))))))), mem_chunk 0 0 inb_S2x2x10000_S1x2x2500_0_0_0 k c r hk h1 h2⟩

end Cert.KernelIdeal.Mlp

end
-- ==== Proof.KernelIdeal.EntryValues.lean ====
/-
  What the region finds in its input arrays, read at an entry on the extended reals, in terms of the launch memory.
  The features' array is an argument no host operation writes. The first-layer weights reach the region converted to a
  narrower float format, which changes nothing here; the first bias reshaped from [128] to [1, 128]; the class weights
  padded on the right from two columns to eight and converted, so that a column among the first two is the
  argument's; the second bias reshaped from [2] to [2, 1].
-/
import proofs.«172818_g67224828117284_cont_sun_c4_631_34_alg».proof.Proof.KernelIdeal.Fold
import proofs.«172818_g67224828117284_cont_sun_c4_631_34_alg».proof.Proof.KernelIdeal.PieceValue
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Mlp

open Idealize.ShloMosaic Idealize.ShloMosaic.TcCoe Idealize.ShloMosaic.ValueIdx
open Idealize.SL Idealize.SL.Sem
open Cert.KernelIdeal Cert.KernelIdeal.Gen

/-! ## Two index maps -/

/-- An `[a]` array cast to `[a, 1]` reads, at `(i, u)`, the operand at `i`: both sit at row-major position `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array padded on the right of its second axis only, to `[a, b']`, reads the operand at every column the
    operand has: no low padding and no interior padding, so the result's coordinates there are the operand's own. -/
private theorem pad_right_apply {α : Type} {a b b' p : ℕ} (x : (⟨2, ![a, b]⟩ : Shape).Idx → α) {u : Shape} (v : u.Idx → α)
    (h : (⟨2, ![a, b]⟩ : Shape).Pads (![0, 0] : Fin 2 → Nat) ![0, p] ![0, 0] ⟨2, ![a, b']⟩) (hu : 0 < u.numel)
    (i : Fin a) (j : Fin b) (j' : Fin b') (hj : j'.val = j.val) :
    pad ⟨2, ![a, b']⟩ ![0, 0] ![0, p] ![0, 0] x v h hu (ix2 i j') = x (ix2 i j) :=
  pad_apply_of_inside _ _ _ x v h hu _ _ fun ax => by
    match ax with
    | ⟨0, _⟩ => show i.val = 0 + i.val * (0 + 1); omega
    | ⟨1, _⟩ => show j'.val = 0 + j.val * (0 + 1); omega

/-! ## The arrays at the region's entry -/

variable (m : (ℓ : Loc nD τ sig) → Buf (Elt Ideal) ℓ) (ρ : Dev nD → PrngReg)

/-- The first-layer weights: the argument, converted. -/
private theorem whole_v0 (c : Dev nD) :
    @Eq (FVec Ideal S128x128 .bf16) (V3 m ρ c main_v0)
      (truncf .bf16 (m ((c : Thread nD τ).loc main_arg1) : FVec Ideal S128x128 .f32) bitsLt_bf16_f32) := by
  show StableHlo.after hostOps0_2 (StableHlo.after hostOps0_1 (StableHlo.after hostOps0 (fun b => m (c, b)))) (Proc.devRef .tc main_v0) = _
  after_results <;> rfl

/-- The first bias: the argument, reshaped. -/
private theorem whole_v1 (c : Dev nD) :
    @Eq (FVec Ideal S1x128 .f32) (V3 m ρ c main_v1)
      (shapeCast S1x128 (m ((c : Thread nD τ).loc main_arg2) : FVec Ideal S128 .f32) shapeCasts_S128_S1x128) := by
  show StableHlo.after hostOps0_2 (StableHlo.after hostOps0_1 (StableHlo.after hostOps0 (fun b => m (c, b)))) (Proc.devRef .tc main_v1) = _
  after_results <;> rfl

/-- The class weights: the argument, padded with the converted integer zero and converted. -/
private theorem whole_v3 (c : Dev nD) :
    @Eq (FVec Ideal S128x8 .bf16) (V3 m ρ c main_v3)
      (truncf .bf16 (pad S128x8 ![0, 0] ![0, 6] ![0, 0] (m ((c : Thread nD τ).loc main_arg3) : FVec Ideal S128x2 .f32)
        (sitofp .f32 (constantI S_ 32 0#32) : FVec Ideal S_ .f32) pads_S128x2_S128x8_000_060 h_S_ : FVec Ideal S128x8 .f32) bitsLt_bf16_f32) := by
  show StableHlo.after hostOps0_2 (StableHlo.after hostOps0_1 (StableHlo.after hostOps0 (fun b => m (c, b)))) (Proc.devRef .tc main_v3) = _
  after_results <;> rfl

/-- The second bias: the argument, reshaped. -/
private theorem whole_v4 (c : Dev nD) :
    @Eq (FVec Ideal S2x1 .f32) (V3 m ρ c main_v4)
      (shapeCast S2x1 (m ((c : Thread nD τ).loc main_arg4) : FVec Ideal S2 .f32) shapeCasts_S2_S2x1) := by
  show StableHlo.after hostOps0_2 (StableHlo.after hostOps0_1 (StableHlo.after hostOps0 (fun b => m (c, b)))) (Proc.devRef .tc main_v4) = _
  after_results <;> rfl

/-! ## Their entries -/

/-- The features, as launched. -/
theorem V3_arg0 (c : Dev nD) : V3 m ρ c main_arg0 = m ((c : Thread nD τ).loc main_arg0) := by
  show StableHlo.after hostOps0_2 (StableHlo.after hostOps0_1 (StableHlo.after hostOps0 (fun b => m (c, b)))) (Proc.devRef .tc main_arg0) = _
  after_results <;> rfl

/-- The first-layer weights at row `d`, column `k`. -/
theorem V3_v0_apply (c : Dev nD) (d k : Fin 128) :
    V3 m ρ c main_v0 (ix2 d k) = m ((c : Thread nD τ).loc main_arg1) (ix2 d k) :=
  congrFun (whole_v0 m ρ c) (ix2 d k)

/-- The first bias at unit `k`. -/
theorem V3_v1_apply (c : Dev nD) (k : Fin 128) :
    V3 m ρ c main_v1 (ix2 (0 : Fin 1) k) = m ((c : Thread nD τ).loc main_arg2) (ix1 k) :=
  (congrFun (whole_v1 m ρ c) (ix2 (0 : Fin 1) k)).trans (shapeCast_a_1a_apply _ _ 0 k)

/-- The class weights at unit `k`, class `cc` (one of the first two of the eight padded columns). -/
theorem V3_v3_apply (c : Dev nD) (k : Fin 128) (cc : Fin 2) :
    V3 m ρ c main_v3 (ix2 k (cls8 cc)) = m ((c : Thread nD τ).loc main_arg3) (ix2 k cc) :=
  (congrFun (whole_v3 m ρ c) (ix2 k (cls8 cc))).trans (pad_right_apply (p := 6) _ _ pads_S128x2_S128x8_000_060 h_S_ k cc (cls8 cc) rfl)

/-- The second bias at class `cc`. -/
theorem V3_v4_apply (c : Dev nD) (cc : Fin 2) :
    V3 m ρ c main_v4 (ix2 cc (0 : Fin 1)) = m ((c : Thread nD τ).loc main_arg4) (ix1 cc) :=
  (congrFun (whole_v4 m ρ c) (ix2 cc (0 : Fin 1))).trans (shapeCast_a_a1_apply _ _ cc 0)

end Cert.KernelIdeal.Mlp

end
-- ==== Proof.Spec.lean ====
/-
  The function both programs compute, over the extended reals: a two-layer perceptron read row by row.
  For a row `n` of the features `x` (100000 rows of 128), the hidden unit `k` is
  `max (∑ d, x[n,d] · W1[d,k] + b1[k]) 0` and the class-`c` logit is `∑ k, hidden[n,k] · W2[k,c] + b2[c]`.
  Only commutativity of the product is needed to pass between the two programs' arrangements of the second
  product, so nothing here asks the entries to be finite.
-/
import Idealize.ShloMosaic.PureOps.Ideal
import Idealize.ShloMosaic.Lib.ValueIdx

noncomputable section

open scoped BigOperators

namespace Cert.MlpSpec

open Idealize.ShloMosaic Idealize.ShloMosaic.ValueIdx

/-- The hidden layer at row `n`, unit `k`: the affine map of the row followed by the positive part. -/
def hidden {N : Nat} (x : (⟨2, ![N, 128]⟩ : Shape).Idx → EReal) (W1 : (⟨2, ![128, 128]⟩ : Shape).Idx → EReal)
    (b1 : Fin 128 → EReal) (n : Fin N) (k : Fin 128) : EReal :=
  max ((∑ d : Fin 128, x (ix2 n d) * W1 (ix2 d k)) + b1 k) 0

/-- The logit of class `c` at row `n`, the hidden layer multiplied ON THE LEFT of the class weights
    (the order the reference's product has). -/
def logit {N : Nat} (x : (⟨2, ![N, 128]⟩ : Shape).Idx → EReal) (W1 : (⟨2, ![128, 128]⟩ : Shape).Idx → EReal)
    (b1 : Fin 128 → EReal) (W2 : Fin 128 → Fin 2 → EReal) (b2 : Fin 2 → EReal) (n : Fin N) (c : Fin 2) : EReal :=
  (∑ k : Fin 128, hidden x W1 b1 n k * W2 k c) + b2 c

/-- The same logit with the class weights multiplied on the left of the hidden layer (the order the kernel's
    transposed product has): the product of extended reals commutes. -/
theorem logit_comm {N : Nat} (x : (⟨2, ![N, 128]⟩ : Shape).Idx → EReal) (W1 : (⟨2, ![128, 128]⟩ : Shape).Idx → EReal)
    (b1 : Fin 128 → EReal) (W2 : Fin 128 → Fin 2 → EReal) (b2 : Fin 2 → EReal) (n : Fin N) (c : Fin 2) :
    (∑ k : Fin 128, W2 k c * hidden x W1 b1 n k) + b2 c = logit x W1 b1 W2 b2 n c := by
  unfold logit
  congr 1
  exact Finset.sum_congr rfl fun k _ => mul_comm _ _

/-- The whole result array: row `n`, class `c`. -/
def logits (x : (⟨2, ![100000, 128]⟩ : Shape).Idx → EReal) (W1 : (⟨2, ![128, 128]⟩ : Shape).Idx → EReal)
    (b1 : (⟨1, ![128]⟩ : Shape).Idx → EReal) (W2 : (⟨2, ![128, 2]⟩ : Shape).Idx → EReal)
    (b2 : (⟨1, ![2]⟩ : Shape).Idx → EReal) : (⟨2, ![100000, 2]⟩ : Shape).Idx → EReal :=
  fun i => logit x W1 (fun k => b1 (ix1 k)) (fun k c => W2 (ix2 k c)) (fun c => b2 (ix1 c)) (i 0) (i 1)

end Cert.MlpSpec

end
-- ==== Proof.KernelIdeal.KernelValue.lean ====
/-
  The region's result array, and with it the program's result, as the specification's `logits` of the arguments.
  Grid point `t` writes back block `t` of the result array: feature blocks `2 t` and `2 t + 1`, both classes, all
  10000 rows of each. What the body leaves there is, entry by entry, the logit of the row it came from: the body's
  input blocks ARE the arguments read through their rectangles, and the product of extended reals commutes. The five
  blocks of the result array cover it, so it ends holding the logits laid out as (block of rows, class, row in block);
  the transposition and reshape after the region lay them out as (row, class).
-/
import proofs.«172818_g67224828117284_cont_sun_c4_631_34_alg».proof.Proof.KernelIdeal.OutValue
import proofs.«172818_g67224828117284_cont_sun_c4_631_34_alg».proof.Proof.KernelIdeal.EntryValues
import proofs.«172818_g67224828117284_cont_sun_c4_631_34_alg».proof.Proof.KernelIdeal.Tail
import proofs.«172818_g67224828117284_cont_sun_c4_631_34_alg».proof.Proof.Spec
import Idealize.ShloMosaic.Lib.Pipeline.Value

set_option maxRecDepth 16384

noncomputable section

open scoped BigOperators

namespace Cert.KernelIdeal.Mlp

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- Row `r` of feature block `g`, as a row of the features. -/
abbrev rowOf (g : Fin 10) (r : Fin 10000) : Fin 100000 := ⟨g.val * 10000 + r.val, by omega⟩

/-- The specification's logits of core `c`'s arguments. -/
abbrev spec (c : Dev nD) : S100000x2.Idx → EReal :=
  Cert.MlpSpec.logits (m ((c : Thread nD τ).loc main_arg0)) (m ((c : Thread nD τ).loc main_arg1)) (m ((c : Thread nD τ).loc main_arg2))
    (m ((c : Thread nD τ).loc main_arg3)) (m ((c : Thread nD τ).loc main_arg4))

/-- The result array as one function: at (block of rows `g`, class, row `r`) the logit of row `rowOf g r`. -/
def Gout (c : Dev nD) : S10x2x10000.Idx → Elt Ideal .f32 :=
  fun j => spec m c (ix2 (rowOf (j 0) (j 2)) (j 1))

/-- The printed index maps over the grid: the two feature windows take blocks `2 t` and `2 t + 1`, the weights and
    biases their one block, the result block `t`. -/
theorem idx_facts : ∀ t : Fin cfg0.N, win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

theorem t_lt (t : Fin cfg0.N) : t.val < 5 := lt_of_lt_of_eq t.isLt (show cfg0.N = 5 from N_0)

/-- The two feature blocks grid point `t` reads, and the one of them a coordinate `k` of the result block names. -/
abbrev blkOf (t : Fin cfg0.N) (k : Fin 2) : Fin 10 := ⟨2 * t.val + k.val, by have := t_lt t; omega⟩

/-! ## The input blocks are the arguments read through their rectangles -/

theorem iblk0_apply (c : Dev nD) (t : Fin cfg0.N) (r : Fin 10000) (d : Fin 128) :
    iblk (V3 m ρ) c 0 t (ix2 r d)
      = m ((c : Thread nD τ).loc main_arg0) (ix2 (rowOf (blkOf t 0) r) d) := by
  show V3 m ρ c main_arg0 (((cfg0.win 0).blk t).view.emb (ix2 r d)) = _
  rw [V3_arg0]
  refine congrArg _ (funext fun a => Fin.ext ?_)
  obtain ⟨e0, e1, -⟩ := idx_facts t
  match a with
  | ⟨0, _⟩ => show win0_0.index t (0 : Fin 2) * 10000 + 1 * r.val = (2 * t.val + 0) * 10000 + r.val; omega
  | ⟨1, _⟩ => show win0_0.index t (1 : Fin 2) * 128 + 1 * d.val = d.val; omega

theorem iblk1_apply (c : Dev nD) (t : Fin cfg0.N) (r : Fin 10000) (d : Fin 128) :
    iblk (V3 m ρ) c 1 t (ix2 r d)
      = m ((c : Thread nD τ).loc main_arg0) (ix2 (rowOf (blkOf t 1) r) d) := by
  show V3 m ρ c main_arg0 (((cfg0.win 1).blk t).view.emb (ix2 r d)) = _
  rw [V3_arg0]
  refine congrArg _ (funext fun a => Fin.ext ?_)
  obtain ⟨-, -, e0, e1, -⟩ := idx_facts t
  match a with
  | ⟨0, _⟩ => show win0_1.index t (0 : Fin 2) * 10000 + 1 * r.val = (2 * t.val + 1) * 10000 + r.val; omega
  | ⟨1, _⟩ => show win0_1.index t (1 : Fin 2) * 128 + 1 * d.val = d.val; omega

theorem iblk2_apply (c : Dev nD) (t : Fin cfg0.N) (d k : Fin 128) :
    iblk (V3 m ρ) c 2 t (ix2 d k) = m ((c : Thread nD τ).loc main_arg1) (ix2 d k) := by
  refine Eq.trans ?_ (V3_v0_apply m ρ c d k)
  show V3 m ρ c main_v0 (((cfg0.win 2).blk t).view.emb (ix2 d k)) = _
  refine congrArg _ (funext fun a => Fin.ext ?_)
  obtain ⟨-, -, -, -, e0, e1, -⟩ := idx_facts t
  match a with
  | ⟨0, _⟩ => show win0_2.index t (0 : Fin 2) * 128 + 1 * d.val = d.val; omega
  | ⟨1, _⟩ => show win0_2.index t (1 : Fin 2) * 128 + 1 * k.val = k.val; omega

theorem iblk3_apply (c : Dev nD) (t : Fin cfg0.N) (k : Fin 128) :
    iblk (V3 m ρ) c 3 t (ix2 (0 : Fin 1) k) = m ((c : Thread nD τ).loc main_arg2) (ix1 k) := by
  refine Eq.trans ?_ (V3_v1_apply m ρ c k)
  show V3 m ρ c main_v1 (((cfg0.win 3).blk t).view.emb (ix2 (0 : Fin 1) k)) = _
  refine congrArg _ (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 128 + 1 * k.val = k.val; omega

theorem iblk4_apply (c : Dev nD) (t : Fin cfg0.N) (k : Fin 128) (cc : Fin 2) :
    iblk (V3 m ρ) c 4 t (ix2 k (cls8 cc)) = m ((c : Thread nD τ).loc main_arg3) (ix2 k cc) := by
  refine Eq.trans ?_ (V3_v3_apply m ρ c k cc)
  show V3 m ρ c main_v3 (((cfg0.win 4).blk t).view.emb (ix2 k (cls8 cc))) = _
  refine congrArg _ (funext fun a => Fin.ext ?_)
  obtain ⟨-, -, -, -, -, -, -, -, e0, e1, -⟩ := idx_facts t
  match a with
  | ⟨0, _⟩ => show win0_4.index t (0 : Fin 2) * 128 + 1 * k.val = k.val; omega
  | ⟨1, _⟩ => show win0_4.index t (1 : Fin 2) * 8 + 1 * cc.val = cc.val; omega

theorem iblk5_apply (c : Dev nD) (t : Fin cfg0.N) (cc : Fin 2) :
    iblk (V3 m ρ) c 5 t (ix2 cc (0 : Fin 1)) = m ((c : Thread nD τ).loc main_arg4) (ix1 cc) := by
  refine Eq.trans ?_ (V3_v4_apply m ρ c cc)
  show V3 m ρ c main_v4 (((cfg0.win 5).blk t).view.emb (ix2 cc (0 : Fin 1))) = _
  refine congrArg _ (funext fun a => Fin.ext ?_)
  obtain ⟨-, -, -, -, -, -, -, -, -, -, e0, e1, -⟩ := idx_facts t
  match a with
  | ⟨0, _⟩ => show win0_5.index t (0 : Fin 2) * 2 + 1 * cc.val = cc.val; omega
  | ⟨1, _⟩ => show win0_5.index t (1 : Fin 2) * 1 + 1 * 0 = 0; omega

/-! ## What a point writes back -/

/-- Point `t` writes back block `t` of `Gout`. -/
theorem flushed6_eq (c : Dev nD) (t : Fin cfg0.N) :
    (dat0 (V3 m ρ) c).flushed 6 t = ((cfg0.win 6).blk t).view.read (Elt Ideal) (Gout m c) := by
  show (cfg0.win 6).cut (grid0.coords t) ((dat0 (V3 m ρ) c).after 6 t) = _
  rw [after_6]
  funext j
  obtain ⟨k, cc, r, rfl⟩ : ∃ (k : Fin 2) (cc : Fin 2) (r : Fin 10000), j = ix3 k cc r := ⟨j 0, j 1, j 2, eq_ix3 j⟩
  show out6 (F := Ideal) (iblk (V3 m ρ) c 0 t) (iblk (V3 m ρ) c 1 t) (iblk (V3 m ρ) c 2 t) (iblk (V3 m ρ) c 3 t) (iblk (V3 m ρ) c 4 t)
      (iblk (V3 m ρ) c 5 t) (ix3 k cc r) = Gout m c (((cfg0.win 6).blk t).view.emb (ix3 k cc r))
  rw [out6_apply]
  have hemb : ((cfg0.win 6).blk t).view.emb (ix3 k cc r) = ix3 (blkOf t k) cc r := by
    obtain ⟨-, -, -, -, -, -, -, -, -, -, -, -, e0, e1, e2⟩ := idx_facts t
    funext a; apply Fin.ext
    match a with
    | ⟨0, _⟩ => show win0_6.index t (0 : Fin 3) * 2 + 1 * k.val = 2 * t.val + k.val; omega
    | ⟨1, _⟩ => show win0_6.index t (1 : Fin 3) * 2 + 1 * cc.val = cc.val; omega
    | ⟨2, _⟩ => show win0_6.index t (2 : Fin 3) * 10000 + 1 * r.val = r.val; omega
  rw [hemb]
  unfold Gout spec Cert.MlpSpec.logits
  rw [← Cert.MlpSpec.logit_comm]
  unfold Cert.MlpSpec.hidden
  simp only [iblk2_apply, iblk3_apply, iblk4_apply, iblk5_apply]
  have hx : ∀ d : Fin 128, (if k.val = 0 then iblk (V3 m ρ) c 0 t else iblk (V3 m ρ) c 1 t) (ix2 r d)
      = m ((c : Thread nD τ).loc main_arg0) (ix2 (rowOf (blkOf t k) r) d) := by
    intro d
    by_cases hk : k.val = 0
    · rw [if_pos hk, iblk0_apply, show k = 0 from Fin.ext hk]
    · rw [if_neg hk, iblk1_apply, show k = 1 from Fin.ext (by have := k.isLt; show k.val = 1; omega)]
  simp only [hx]

/-! ## The cover, and the array -/

/-- An index of the result array is in point `t`'s block iff its block of rows is `2 t` or `2 t + 1`. -/
theorem mem_blk6 (t : Fin cfg0.N) (i : S10x2x10000.Idx) :
    i ∈ ((cfg0.win 6).blk t).view.set ↔ ∀ a : Fin 3, win0_6.index t a * S2x2x10000.size a ≤ (i a).val ∧ (i a).val < win0_6.index t a * S2x2x10000.size a + S2x2x10000.size a := by
  show i ∈ ((View.whole main_v5).slice (win0_6.rect t)).set ↔ _
  rw [View.set_slice_whole, Rect.mem_set_unit]
  exact Iff.rfl

/-- Every index of the result array is in some point's block. -/
theorem cover_arr6 (i : S10x2x10000.Idx) : ∃ t : Fin cfg0.N, (cfg0.win 6).flush t = true ∧ i ∈ ((cfg0.win 6).blk t).view.set := by
  have hi0 : (i 0).val < 10 := (i 0).isLt
  have hi1 : (i 1).val < 2 := (i 1).isLt
  have hi2 : (i 2).val < 10000 := (i 2).isLt
  let t : Fin cfg0.N := ⟨(i 0).val / 2, by rw [show cfg0.N = grid0.N from rfl, N_0]; omega⟩
  refine ⟨t, flush0_6 t, ?_⟩
  rw [mem_blk6]
  obtain ⟨-, -, -, -, -, -, -, -, -, -, -, -, e0, e1, e2⟩ := idx_facts t
  have ht : t.val = (i 0).val / 2 := rfl
  intro a
  match a with
  | ⟨0, _⟩ => show win0_6.index t (0 : Fin 3) * 2 ≤ (i 0).val ∧ (i 0).val < win0_6.index t (0 : Fin 3) * 2 + 2; omega
  | ⟨1, _⟩ => show win0_6.index t (1 : Fin 3) * 2 ≤ (i 1).val ∧ (i 1).val < win0_6.index t (1 : Fin 3) * 2 + 2; omega
  | ⟨2, _⟩ => show win0_6.index t (2 : Fin 3) * 10000 ≤ (i 2).val ∧ (i 2).val < win0_6.index t (2 : Fin 3) * 10000 + 10000; omega

/-- The result array after the region. -/
theorem arrAt6 (c : Dev nD) : (dat0 (V3 m ρ) c).arrAt 6 cfg0.N = Gout m c :=
  (dat0 (V3 m ρ) c).arrAt_eq_of_cover 6 (Gout m c) (fun t _ => flushed6_eq m ρ c t) cover_arr6

/-- The program's result buffer at the end: the specification's logits of the arguments. -/
theorem result_eq (c : Dev nD) : W5 m ρ c (Proc.devRef .tc main_v7) = spec m c := by
  funext i
  obtain ⟨n, cc, rfl⟩ : ∃ (n : Fin 100000) (cc : Fin 2), i = ix2 n cc := ⟨i 0, i 1, eq_ix2 i⟩
  rw [W5_v7_apply, W4_v5, arrAt6]
  unfold Gout
  refine congrArg (spec m c) ?_
  have hn : rowOf (⟨n.val / 10000, by omega⟩ : Fin 10) (⟨n.val % 10000, by omega⟩ : Fin 10000) = n :=
    Fin.ext (by show n.val / 10000 * 10000 + n.val % 10000 = n.val; omega)
  show ix2 (rowOf (⟨n.val / 10000, by omega⟩ : Fin 10) (⟨n.val % 10000, by omega⟩ : Fin 10000)) cc = ix2 n cc
  rw [hn]

end Cert.KernelIdeal.Mlp

end
-- ==== Proof.RefRun.lean ====
/-
  The reference program's run and its stages read at an index: this module only gathers the generated run of the
  host reference and its read-at-an-index lemmas, so that the modules about the reference's value import one name.
-/
import proofs.«172818_g67224828117284_cont_sun_c4_631_34_alg».proof.Proof.Gen.ReferenceIdeal.Run
import proofs.«172818_g67224828117284_cont_sun_c4_631_34_alg».proof.Proof.Gen.ReferenceIdeal.Read
-- ==== Proof.RefValue.lean ====
/-
  The reference's result is the specification's `logits`: its stages, read one at a time at an entry, are the first
  product row by column, the bias broadcast down the rows, the positive part against a broadcast zero, the second product
  and the second bias.
-/
import proofs.«172818_g67224828117284_cont_sun_c4_631_34_alg».proof.Proof.RefRun
import proofs.«172818_g67224828117284_cont_sun_c4_631_34_alg».proof.Proof.Spec

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read

/-! ## Where each stage reads its operands

An entry of a product reads a row of its left operand and a column of its right one; an entry of a bias broadcast
down the rows reads the bias at the entry's column. -/

/-- The first product at row `n`, column `k` reads the features at row `n`, position `d`. -/
private theorem first_left (n : Fin 100000) (k d : Fin 128) : lidx_main_v0 (ix2 n k) d = ix2 n d :=
  funext fun a => Fin.ext (by match a with | ⟨0, _⟩ => rfl | ⟨1, _⟩ => rfl)

/-- … and the first weights at row `d`, column `k`. -/
private theorem first_right (n : Fin 100000) (k d : Fin 128) : ridx_main_v0 (ix2 n k) d = ix2 d k :=
  funext fun a => Fin.ext (by match a with | ⟨0, _⟩ => rfl | ⟨1, _⟩ => rfl)

/-- The first bias, made a row and then repeated down the rows, is read at the entry's column. -/
private theorem first_bias (n : Fin 100000) (k : Fin 128) : idx_main_v1 (idx_main_v2 (ix2 n k)) = ix1 k :=
  funext fun a => Fin.ext (by match a with | ⟨0, _⟩ => rfl)

/-- The second product at row `n`, class `c` reads the hidden layer at row `n`, unit `k`. -/
private theorem second_left (n : Fin 100000) (c : Fin 2) (k : Fin 128) : lidx_main_v5 (ix2 n c) k = ix2 n k :=
  funext fun a => Fin.ext (by match a with | ⟨0, _⟩ => rfl | ⟨1, _⟩ => rfl)

/-- … and the class weights at row `k`, column `c`. -/
private theorem second_right (n : Fin 100000) (c : Fin 2) (k : Fin 128) : ridx_main_v5 (ix2 n c) k = ix2 k c :=
  funext fun a => Fin.ext (by match a with | ⟨0, _⟩ => rfl | ⟨1, _⟩ => rfl)

/-- The second bias, made a row and then repeated down the rows, is read at the entry's class. -/
private theorem second_bias (n : Fin 100000) (c : Fin 2) : idx_main_v6 (idx_main_v7 (ix2 n c)) = ix1 c :=
  funext fun a => Fin.ext (by match a with | ⟨0, _⟩ => rfl)

/-! ## The hidden layer -/

/-- The positive part of the first affine map, at row `n` and unit `k`, is the specification's hidden unit: the
    product is the row-by-column sum, the broadcast bias is the bias at `k`, and the broadcast constant is zero. -/
private theorem hidden_eq (x : (⟨S100000x128, .f32⟩ : BufTy).Contents (Elt Ideal))
    (W1 : (⟨S128x128, .f32⟩ : BufTy).Contents (Elt Ideal)) (b1 : (⟨S128, .f32⟩ : BufTy).Contents (Elt Ideal))
    (n : Fin 100000) (k : Fin 128) :
    val_main_v4 (F := Ideal) x W1 b1 (ix2 n k)
      = Cert.MlpSpec.hidden x W1 (fun k => b1 (ix1 k)) n k := by
  rw [val_main_v4_apply, val_main_v3_apply, val_main_v0_apply, val_main_v2_apply, val_main_v1_apply,
    val_main_call0_v0_apply, val_main_call0_cst_apply]
  simp only [first_left, first_right, first_bias, Ideal.ofBits_def, Ideal.ofBits_zero_f32, Ideal.addf_def,
    Ideal.maximumf_def]
  rfl

/-- The reference's last stage is `logits` of its five arguments. -/
theorem ref_eq (x : (⟨S100000x128, .f32⟩ : BufTy).Contents (Elt Ideal)) (W1 : (⟨S128x128, .f32⟩ : BufTy).Contents (Elt Ideal))
    (b1 : (⟨S128, .f32⟩ : BufTy).Contents (Elt Ideal)) (W2 : (⟨S128x2, .f32⟩ : BufTy).Contents (Elt Ideal))
    (b2 : (⟨S2, .f32⟩ : BufTy).Contents (Elt Ideal)) :
    val_main_v8 (F := Ideal) x W1 b1 W2 b2 = Cert.MlpSpec.logits x W1 b1 W2 b2 := by
  funext i
  obtain ⟨n, c, rfl⟩ : ∃ (n : Fin 100000) (c : Fin 2), i = ix2 n c := ⟨i 0, i 1, eq_ix2 i⟩
  rw [val_main_v8_apply, val_main_v5_apply, val_main_v7_apply, val_main_v6_apply]
  simp only [second_left, second_right, second_bias, hidden_eq, Ideal.addf_def]
  rfl

end Cert.ReferenceIdeal.RefValue

end
-- ==== Proof.lean ====
/-
  The certificate: a two-layer perceptron over 100000 rows of 128 features, computed by a kernel that streams the rows
  in two interleaved blocks of 10000 per grid point and writes the logits transposed, against the plain reference
  `max (x · W1 + b1) 0 · W2 + b2`.

  Both programs run to the end, fault nowhere and leave their arguments unchanged. For the kernel's program this is
  the run of @main segment by segment — host operations, the kernel region, host operations — the region entered with
  the features' array split between the two windows that read it. The idealization rewrote nothing. On the extended
  reals the two programs compute, entry by entry, `∑ k, max (∑ d, x[n,d] · W1[d,k] + b1[k]) 0 · W2[k,c] + b2[c]`:
  the kernel's second product has its factors in the other order, and the product of extended reals commutes; the
  padded columns of the class weights feed rows of the transposed product that the kernel drops. No entry needs to be finite.
-/
import proofs.«172818_g67224828117284_cont_sun_c4_631_34_alg».proof.Defs
import proofs.«172818_g67224828117284_cont_sun_c4_631_34_alg».proof.Proof.Gen.Kernel
import proofs.«172818_g67224828117284_cont_sun_c4_631_34_alg».proof.Proof.Gen.KernelIdeal
import proofs.«172818_g67224828117284_cont_sun_c4_631_34_alg».proof.Proof.Gen.ReferenceIdeal
import proofs.«172818_g67224828117284_cont_sun_c4_631_34_alg».proof.Proof.Gen.Pre_finite_inputs
import proofs.«172818_g67224828117284_cont_sun_c4_631_34_alg».proof.Proof.Kernel.Frame
import proofs.«172818_g67224828117284_cont_sun_c4_631_34_alg».proof.Proof.KernelIdeal.Frame
import proofs.«172818_g67224828117284_cont_sun_c4_631_34_alg».proof.Proof.KernelIdeal.KernelValue
import proofs.«172818_g67224828117284_cont_sun_c4_631_34_alg».proof.Proof.RefValue
import Idealize.ShloMosaic.Adequacy
import Idealize.ShloMosaic.Init

noncomputable section

namespace Cert.Proof

open Idealize.ShloMosaic Idealize.SL.Sem

/-- The word-level program runs and keeps its arguments. -/
theorem frame_p : Cert.frame_Kernel := fun m ρ _ => Cert.Kernel.Mlp.frame m ρ

/-- The idealized program runs and keeps its arguments. -/
theorem frame_pi : Cert.frame_KernelIdeal := fun m ρ _ => Cert.KernelIdeal.Mlp.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized program's run with its result named: the logits of the arguments. -/
theorem run_pi (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v7) = Cert.KernelIdeal.Mlp.spec m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun r h c =>
    ⟨(h c _ (Cert.KernelIdeal.Mlp.mem_uc Cert.KernelIdeal.main_v7 (by decide))).trans (Cert.KernelIdeal.Mlp.result_eq m ρ c),
     (h c _ (Cert.KernelIdeal.Mlp.mem_uc Cert.KernelIdeal.main_arg0 (by decide))).trans (Cert.KernelIdeal.Mlp.W5_arg0 m ρ c),
     (h c _ (Cert.KernelIdeal.Mlp.mem_uc Cert.KernelIdeal.main_arg1 (by decide))).trans (Cert.KernelIdeal.Mlp.W5_arg1 m ρ c),
     (h c _ (Cert.KernelIdeal.Mlp.mem_uc Cert.KernelIdeal.main_arg2 (by decide))).trans (Cert.KernelIdeal.Mlp.W5_arg2 m ρ c),
     (h c _ (Cert.KernelIdeal.Mlp.mem_uc Cert.KernelIdeal.main_arg3 (by decide))).trans (Cert.KernelIdeal.Mlp.W5_arg3 m ρ c),
     (h c _ (Cert.KernelIdeal.Mlp.mem_uc Cert.KernelIdeal.main_arg4 (by decide))).trans (Cert.KernelIdeal.Mlp.W5_arg4 m ρ c)⟩)
    (Cert.KernelIdeal.Mlp.run_main m ρ)

/-- From memories agreeing on the arguments both idealized programs end with the logits of those arguments. -/
theorem algebraic : Cert.algebraic_KernelIdeal_ReferenceIdeal := by
  intro m ρ m' ρ' _ hagree
  refine ⟨fun c => Cert.KernelIdeal.Mlp.spec m c, run_pi m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
